-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v88)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v88) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1250000 : Shape := ⟨2, ![2, 1250000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x64 .f32) (main_arg1 : IVec S2x1250000 32) (main_arg2 : FVec F S64x64 .f32) (main_arg3 : FVec F S64 .f32) (main_arg4 : FVec F S64x64 .f32) (main_arg5 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_v13 main_v16
-- ==== Kernel.lean ====
abbrev S100000x64 : Shape := ⟨2, ![100000, 64]⟩
abbrev S2x1250000 : Shape := ⟨2, ![2, 1250000]⟩
abbrev S64x64 : Shape := ⟨2, ![64, 64]⟩
abbrev S64 : Shape := ⟨1, ![64]⟩
abbrev S1x1250000 : Shape := ⟨2, ![1, 1250000]⟩
abbrev S1250000 : Shape := ⟨1, ![1250000]⟩
abbrev S2000x64 : Shape := ⟨2, ![2000, 64]⟩
abbrev S_ : Shape := ⟨0, ![]⟩
abbrev S100000 : Shape := ⟨1, ![100000]⟩
abbrev S1250000x1 : Shape := ⟨2, ![1250000, 1]⟩
abbrev S1250000x64 : Shape := ⟨2, ![1250000, 64]⟩
abbrev S100000x1 : Shape := ⟨2, ![100000, 1]⟩
abbrev S1x64 : Shape := ⟨2, ![1, 64]⟩
abbrev S2000x1 : Shape := ⟨2, ![2000, 1]⟩
abbrev S2000 : Shape := ⟨1, ![2000]⟩

abbrev nBuf : Space → Nat
  | .hbm => 115
  | .vmem => 32
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S1x1250000, .i32⟩
  | .hbm, ⟨7, _⟩ => ⟨S1250000, .i32⟩
  | .hbm, ⟨8, _⟩ => ⟨S1x1250000, .i32⟩
  | .hbm, ⟨9, _⟩ => ⟨S1250000, .i32⟩
  | .hbm, ⟨10, _⟩ => ⟨S100000x64, .f32⟩
  | .hbm, ⟨11, _⟩ => ⟨S_, .f32⟩
  | .hbm, ⟨12, _⟩ => ⟨S1250000, .f32⟩
  | .hbm, ⟨13, _⟩ => ⟨S_, .f32⟩
  | .hbm, ⟨14, _⟩ => ⟨S100000, .f32⟩
  | .hbm, ⟨15, _⟩ => ⟨S1250000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S_, .i32⟩
  | .hbm, ⟨22, _⟩ => ⟨S1250000, .i32⟩
  | .hbm, ⟨23, _⟩ => ⟨S1250000, .i1⟩
  | .hbm, ⟨24, _⟩ => ⟨S_, .i32⟩
  | .hbm, ⟨25, _⟩ => ⟨S1250000, .i32⟩
  | .hbm, ⟨26, _⟩ => ⟨S1250000, .i32⟩
  | .hbm, ⟨27, _⟩ => ⟨S1250000, .i32⟩
  | .hbm, ⟨28, _⟩ => ⟨S1250000x1, .i32⟩
  | .hbm, ⟨29, _⟩ => ⟨S1250000, .f32⟩
  | .hbm, ⟨30, _⟩ => ⟨S_, .i32⟩
  | .hbm, ⟨31, _⟩ => ⟨S1250000, .i32⟩
  | .hbm, ⟨32, _⟩ => ⟨S1250000, .i1⟩
  | .hbm, ⟨33, _⟩ => ⟨S_, .i32⟩
  | .hbm, ⟨34, _⟩ => ⟨S1250000, .i32⟩
  | .hbm, ⟨35, _⟩ => ⟨S1250000, .i32⟩
  | .hbm, ⟨36, _⟩ => ⟨S1250000, .i32⟩
  | .hbm, ⟨37, _⟩ => ⟨S1250000x1, .i32⟩
  | .hbm, ⟨38, _⟩ => ⟨S1250000, .f32⟩
  | .hbm, ⟨39, _⟩ => ⟨S1250000, .f32⟩
  | .hbm, ⟨40, _⟩ => ⟨S_, .i32⟩
  | .hbm, ⟨41, _⟩ => ⟨S1250000, .i32⟩
  | .hbm, ⟨42, _⟩ => ⟨S1250000, .i1⟩
  | .hbm, ⟨43, _⟩ => ⟨S_, .i32⟩
  | .hbm, ⟨44, _⟩ => ⟨S1250000, .i32⟩
  | .hbm, ⟨45, _⟩ => ⟨S1250000, .i32⟩
  | .hbm, ⟨46, _⟩ => ⟨S1250000, .i32⟩
  | .hbm, ⟨47, _⟩ => ⟨S1250000x1, .i32⟩
  | .hbm, ⟨48, _⟩ => ⟨S1250000x64, .f32⟩
  | .hbm, ⟨49, _⟩ => ⟨S1250000x1, .f32⟩
  | .hbm, ⟨50, _⟩ => ⟨S1250000x64, .f32⟩
  | .hbm, ⟨51, _⟩ => ⟨S1250000x64, .f32⟩
  | .hbm, ⟨52, _⟩ => ⟨S_, .f32⟩
  | .hbm, ⟨53, _⟩ => ⟨S100000x64, .f32⟩
  | .hbm, ⟨54, _⟩ => ⟨S1250000x1, .i32⟩
  | .hbm, ⟨55, _⟩ => ⟨S100000x64, .f32⟩
  | .hbm, ⟨56, _⟩ => ⟨S100000, .f32⟩
  | .hbm, ⟨57, _⟩ => ⟨S100000x1, .f32⟩
  | .hbm, ⟨58, _⟩ => ⟨S1x64, .f32⟩
  | .hbm, ⟨59, _⟩ => ⟨S100000x64, .f32⟩
  | .hbm, ⟨60, _⟩ => ⟨S1x1250000, .i32⟩
  | .hbm, ⟨61, _⟩ => ⟨S1250000, .i32⟩
  | .hbm, ⟨62, _⟩ => ⟨S1x1250000, .i32⟩
  | .hbm, ⟨63, _⟩ => ⟨S1250000, .i32⟩
  | .hbm, ⟨64, _⟩ => ⟨S100000x64, .f32⟩
  | .hbm, ⟨65, _⟩ => ⟨S_, .f32⟩
  | .hbm, ⟨66, _⟩ => ⟨S1250000, .f32⟩
  | .hbm, ⟨67, _⟩ => ⟨S_, .f32⟩
  | .hbm, ⟨68, _⟩ => ⟨S100000, .f32⟩
  | .hbm, ⟨69, _⟩ => ⟨S1250000x1, .i32⟩
  | .hbm, ⟨70, _⟩ => ⟨S100000, .f32⟩
  | .hbm, ⟨71, _⟩ => ⟨S_, .f32⟩
  | .hbm, ⟨72, _⟩ => ⟨S100000, .f32⟩
  | .hbm, ⟨73, _⟩ => ⟨S100000, .f32⟩
  | .hbm, ⟨74, _⟩ => ⟨S100000, .f32⟩
  | .hbm, ⟨75, _⟩ => ⟨S_, .i32⟩
  | .hbm, ⟨76, _⟩ => ⟨S1250000, .i32⟩
  | .hbm, ⟨77, _⟩ => ⟨S1250000, .i1⟩
  | .hbm, ⟨78, _⟩ => ⟨S_, .i32⟩
  | .hbm, ⟨79, _⟩ => ⟨S1250000, .i32⟩
  | .hbm, ⟨80, _⟩ => ⟨S1250000, .i32⟩
  | .hbm, ⟨81, _⟩ => ⟨S1250000, .i32⟩
  | .hbm, ⟨82, _⟩ => ⟨S1250000x1, .i32⟩
  | .hbm, ⟨83, _⟩ => ⟨S1250000, .f32⟩
  | .hbm, ⟨84, _⟩ => ⟨S_, .i32⟩
  | .hbm, ⟨85, _⟩ => ⟨S1250000, .i32⟩
  | .hbm, ⟨86, _⟩ => ⟨S1250000, .i1⟩
  | .hbm, ⟨87, _⟩ => ⟨S_, .i32⟩
  | .hbm, ⟨88, _⟩ => ⟨S1250000, .i32⟩
  | .hbm, ⟨89, _⟩ => ⟨S1250000, .i32⟩
  | .hbm, ⟨90, _⟩ => ⟨S1250000, .i32⟩
  | .hbm, ⟨91, _⟩ => ⟨S1250000x1, .i32⟩
  | .hbm, ⟨92, _⟩ => ⟨S1250000, .f32⟩
  | .hbm, ⟨93, _⟩ => ⟨S1250000, .f32⟩
  | .hbm, ⟨94, _⟩ => ⟨S_, .i32⟩
  | .hbm, ⟨95, _⟩ => ⟨S1250000, .i32⟩
  | .hbm, ⟨96, _⟩ => ⟨S1250000, .i1⟩
  | .hbm, ⟨97, _⟩ => ⟨S_, .i32⟩
  | .hbm, ⟨98, _⟩ => ⟨S1250000, .i32⟩
  | .hbm, ⟨99, _⟩ => ⟨S1250000, .i32⟩
  | .hbm, ⟨100, _⟩ => ⟨S1250000, .i32⟩
  | .hbm, ⟨101, _⟩ => ⟨S1250000x1, .i32⟩
  | .hbm, ⟨102, _⟩ => ⟨S1250000x64, .f32⟩
  | .hbm, ⟨103, _⟩ => ⟨S1250000x1, .f32⟩
  | .hbm, ⟨104, _⟩ => ⟨S1250000x64, .f32⟩
  | .hbm, ⟨105, _⟩ => ⟨S1250000x64, .f32⟩
  | .hbm, ⟨106, _⟩ => ⟨S_, .f32⟩
  | .hbm, ⟨107, _⟩ => ⟨S100000x64, .f32⟩
  | .hbm, ⟨108, _⟩ => ⟨S1250000x1, .i32⟩
  | .hbm, ⟨109, _⟩ => ⟨S100000x64, .f32⟩
  | .hbm, ⟨110, _⟩ => ⟨S100000, .f32⟩
  | .hbm, ⟨111, _⟩ => ⟨S100000x1, .f32⟩
  | .hbm, ⟨112, _⟩ => ⟨S1x64, .f32⟩
  | .hbm, ⟨113, _⟩ => ⟨S100000x64, .f32⟩
  | .hbm, ⟨114, _⟩ => ⟨S100000x64, .f32⟩
  | .local _ .vmem, ⟨0, _⟩ => ⟨S2000x64, .f32⟩
  | .local _ .vmem, ⟨1, _⟩ => ⟨S2000x64, .f32⟩
  | .local _ .vmem, ⟨2, _⟩ => ⟨S64x64, .f32⟩
  | .local _ .vmem, ⟨3, _⟩ => ⟨S2000x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S2000x64, .f32⟩
  | .local _ .vmem, ⟨8, _⟩ => ⟨S2000x64, .f32⟩
  | .local _ .vmem, ⟨9, _⟩ => ⟨S2000x1, .f32⟩
  | .local _ .vmem, ⟨10, _⟩ => ⟨S2000x1, .f32⟩
  | .local _ .vmem, ⟨11, _⟩ => ⟨S1x64, .f32⟩
  | .local _ .vmem, ⟨12, _⟩ => ⟨S2000x64, .f32⟩
  | .local _ .vmem, ⟨13, _⟩ => ⟨S2000x64, .f32⟩
  | .local _ .vmem, ⟨14, _⟩ => ⟨S2000x64, .f32⟩
  | .local _ .vmem, ⟨15, _⟩ => ⟨S2000x64, .f32⟩
  | .local _ .vmem, ⟨16, _⟩ => ⟨S64x64, .f32⟩
  | .local _ .vmem, ⟨17, _⟩ => ⟨S2000x64, .f32⟩
  | .local _ .vmem, ⟨18, _⟩ => ⟨S2000x64, .f32⟩
  | .local _ .vmem, ⟨19, _⟩ => ⟨S2000x64, .f32⟩
  | .local _ .vmem, ⟨20, _⟩ => ⟨S2000x64, .f32⟩
  | .local _ .vmem, ⟨21, _⟩ => ⟨S2000x64, .f32⟩
  | .local _ .vmem, ⟨22, _⟩ => ⟨S2000x64, .f32⟩
  | .local _ .vmem, ⟨23, _⟩ => ⟨S2000x1, .f32⟩
  | .local _ .vmem, ⟨24, _⟩ => ⟨S2000x1, .f32⟩
  | .local _ .vmem, ⟨25, _⟩ => ⟨S1x64, .f32⟩
  | .local _ .vmem, ⟨26, _⟩ => ⟨S2000x64, .f32⟩
  | .local _ .vmem, ⟨27, _⟩ => ⟨S2000x64, .f32⟩
  | .local _ .vmem, ⟨28, _⟩ => ⟨S2000x64, .f32⟩
  | .local _ .vmem, ⟨29, _⟩ => ⟨S2000x64, .f32⟩
  | .local _ .vmem, ⟨30, _⟩ => ⟨S2000x64, .f32⟩
  | .local _ .vmem, ⟨31, _⟩ => ⟨S2000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_8 : Ref sig .tc := ⟨.hbm, 65, rfl⟩
abbrev main_v49 : Ref sig .tc := ⟨.hbm, 66, rfl⟩
abbrev main_cst_9 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_10 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_c_11 : Ref sig .tc := ⟨.hbm, 75, rfl⟩
abbrev main_v56 : Ref sig .tc := ⟨.hbm, 76, rfl⟩
abbrev main_v57 : Ref sig .tc := ⟨.hbm, 77, rfl⟩
abbrev main_c_12 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_c_13 : Ref sig .tc := ⟨.hbm, 84, rfl⟩
abbrev main_v63 : Ref sig .tc := ⟨.hbm, 85, rfl⟩
abbrev main_v64 : Ref sig .tc := ⟨.hbm, 86, rfl⟩
abbrev main_c_14 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_c_15 : Ref sig .tc := ⟨.hbm, 94, rfl⟩
abbrev main_v71 : Ref sig .tc := ⟨.hbm, 95, rfl⟩
abbrev main_v72 : Ref sig .tc := ⟨.hbm, 96, rfl⟩
abbrev main_c_16 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_cst_17 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem1_1 : DmaSem sig := 31

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  inb_S2000x64_S2000x64_0_0 : ∀ a, (![0, 0] : Fin 2 → Nat) a + S2000x64.size a ≤ S2000x64.size a
  h_S2000x64 : 0 < S2000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S_S1250000 : S_.BroadcastsInDim S1250000 (![] : Fin 0 → Fin S1250000.rank)
  bcast_S_S100000 : S_.BroadcastsInDim S100000 (![] : Fin 0 → Fin S100000.rank)
  bcast_S1250000_S1250000x1_0 : S1250000.BroadcastsInDim S1250000x1 (![0] : Fin 1 → Fin S1250000x1.rank)
  bcast_S1250000x1_S1250000x64_0_1 : S1250000x1.BroadcastsInDim S1250000x64 (![0, 1] : Fin 2 → Fin S1250000x64.rank)
  bcast_S_S100000x64 : S_.BroadcastsInDim S100000x64 (![] : Fin 0 → Fin S100000x64.rank)
  shapeCasts_S100000_S100000x1 : S100000.ShapeCasts S100000x1
  shapeCasts_S64_S1x64 : S64.ShapeCasts S1x64
  shapeCasts_S2000x64_S2000x64 : S2000x64.ShapeCasts S2000x64
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x64 : S2000x1.Broadcasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  reduces_S2000x64_S2000 : S2000x64.Reduces [1] S2000
  shapeCasts_S2000_S2000x1 : S2000.ShapeCasts S2000x1
  dot_S2000x64_S64x64_S2000x64_1_0_0_1_n_n_wf : DotDims.WF S2000x64 S64x64 S2000x64 [1] [0] [0] [1] [] []
  scatter_S100000_S1250000x1_S1250000_n_0_0_1_wf : ScatterDims.WF S100000 S1250000x1 S1250000 [] [0] [0] 1
  gather_S100000_S1250000x1_S1250000_n_0_n_n_0_1_1_wf : GatherDims.WF S100000 S1250000x1 S1250000 [] [0] [] [0] [] 1 ![1]
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S100000x64.size a
  hwx0_2 : ∀ i : grid0.Coords, EltTy.bits .f32 = 32 ∨ (Rect.block (s := S100000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S100000x64.size a
  hwx1_1 : ∀ i : grid1.Coords, EltTy.bits .f32 = 32 ∨ (Rect.block (s := S100000x64) S2000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S100000x1.size a
  hwx1_2 : ∀ i : grid1.Coords, EltTy.bits .f32 = 32 ∨ (Rect.block (s := S100000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x64.size a ≤ S100000x64.size a
  hwx1_4 : ∀ i : grid1.Coords, EltTy.bits .f32 = 32 ∨ (Rect.block (s := S100000x64) S2000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S100000x64.size a
  hwx2_2 : ∀ i : grid2.Coords, EltTy.bits .f32 = 32 ∨ (Rect.block (s := S100000x64) S2000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S100000x64.size a
  hwx3_0 : ∀ i : grid3.Coords, EltTy.bits .f32 = 32 ∨ (Rect.block (s := S100000x64) S2000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x64.size a ≤ S100000x64.size a
  hwx3_1 : ∀ i : grid3.Coords, EltTy.bits .f32 = 32 ∨ (Rect.block (s := S100000x64) S2000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S100000x1.size a
  hwx3_2 : ∀ i : grid3.Coords, EltTy.bits .f32 = 32 ∨ (Rect.block (s := S100000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x64.size a ≤ S100000x64.size a
  hwx3_4 : ∀ i : grid3.Coords, EltTy.bits .f32 = 32 ∨ (Rect.block (s := S100000x64) S2000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x64.size a ≤ S100000x64.size a
  hwx4_0 : ∀ i : grid4.Coords, EltTy.bits .f32 = 32 ∨ (Rect.block (s := S100000x64) S2000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x64.size a ≤ S100000x64.size a
  hwx4_1 : ∀ i : grid4.Coords, EltTy.bits .f32 = 32 ∨ (Rect.block (s := S100000x64) S2000x64.size (cc4_transform_1 i) (hinb4_1 i)).WholeWords (EltTy.packing .f32)

variable [Facts₀]

def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def gather_S100000_S1250000x1_S1250000_n_0_n_n_0_1_1 : GatherDims S100000 S1250000x1 S1250000 where
  offsetDims := []
  collapsedSliceDims := [0]
  operandBatchingDims := []
  startIndicesBatchingDims := []
  startIndexMap := [0]
  indexVectorDim := 1
  sliceSizes := ![1]
  wf := gather_S100000_S1250000x1_S1250000_n_0_n_n_0_1_1_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v39) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S2000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S2000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v83) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v48) S2000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v85) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v86) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v87) S2000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v87) S2000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v88) S2000x64.size cc4_transform_1 reads4_1 true false 2 stage4_1 sem4_1
    hrank4 hreads4_1 hinb4_1 nbuf4_1 (Memref.isWhole_whole _) hwx4_1 hstage4_1

abbrev win4 : Fin 2 → Pipeline.Window sig grid4 := fun | 0 => win4_0 | 1 => win4_1 | ⟨_ + 2, h⟩ => absurd h (Nat.not_lt.2 (Nat.le_add_left _ _))
abbrev spec4 : Fin 2 → Pipeline.WinSpec sig grid4.rank := fun w => (win4 w).toWinSpec

class Facts : Prop extends Facts₀ where

variable [Facts]
-- ==== ReferenceIdeal.lean ====
abbrev S100000x64 : Shape := ⟨2, ![100000, 64]⟩
abbrev S2x1250000 : Shape := ⟨2, ![2, 1250000]⟩
abbrev S64x64 : Shape := ⟨2, ![64, 64]⟩
abbrev S64 : Shape := ⟨1, ![64]⟩
abbrev S1x1250000 : Shape := ⟨2, ![1, 1250000]⟩
abbrev S1250000 : Shape := ⟨1, ![1250000]⟩
abbrev S_ : Shape := ⟨0, ![]⟩
abbrev S100000 : Shape := ⟨1, ![100000]⟩
abbrev S1250000x1 : Shape := ⟨2, ![1250000, 1]⟩
abbrev S1250000x64 : Shape := ⟨2, ![1250000, 64]⟩
abbrev S100000x1 : Shape := ⟨2, ![100000, 1]⟩
abbrev S1x64 : Shape := ⟨2, ![1, 64]⟩

abbrev nBuf : Space → Nat
  | .hbm => 140
  | .vmem => 0
  | .smem => 0
  | _ => 0

abbrev hbmTy0_0 (i : Nat) : BufTy := match i % 128 with
  | 0 => ⟨S100000x64, .f32⟩
  | 1 => ⟨S2x1250000, .i32⟩
  | 2 => ⟨S64x64, .f32⟩
  | 3 => ⟨S64, .f32⟩
  | 4 => ⟨S64x64, .f32⟩
  | 5 => ⟨S64, .f32⟩
  | 6 => ⟨S1x1250000, .i32⟩
  | 7 => ⟨S1250000, .i32⟩
  | 8 => ⟨S1x1250000, .i32⟩
  | 9 => ⟨S1250000, .i32⟩
  | 10 => ⟨S100000x64, .f32⟩
  | 11 => ⟨S_, .f32⟩
  | 12 => ⟨S1250000, .f32⟩
  | 13 => ⟨S_, .f32⟩
  | 14 => ⟨S100000, .f32⟩
  | 15 => ⟨S1250000x1, .i32⟩
  | 16 => ⟨S100000, .f32⟩
  | 17 => ⟨S_, .f32⟩
  | 18 => ⟨S100000, .f32⟩
  | 19 => ⟨S100000, .f32⟩
  | 20 => ⟨S100000, .f32⟩
  | 21 => ⟨S_, .i32⟩
  | 22 => ⟨S1250000, .i32⟩
  | 23 => ⟨S1250000, .i1⟩
  | 24 => ⟨S_, .i32⟩
  | 25 => ⟨S1250000, .i32⟩
  | 26 => ⟨S1250000, .i32⟩
  | 27 => ⟨S1250000, .i32⟩
  | 28 => ⟨S1250000x1, .i32⟩
  | 29 => ⟨S1250000, .f32⟩
  | 30 => ⟨S_, .i32⟩
  | 31 => ⟨S1250000, .i32⟩
  | 32 => ⟨S1250000, .i1⟩
  | 33 => ⟨S_, .i32⟩
  | 34 => ⟨S1250000, .i32⟩
  | 35 => ⟨S1250000, .i32⟩
  | 36 => ⟨S1250000, .i32⟩
  | 37 => ⟨S1250000x1, .i32⟩
  | 38 => ⟨S1250000, .f32⟩
  | 39 => ⟨S1250000, .f32⟩
  | 40 => ⟨S_, .i32⟩
  | 41 => ⟨S1250000, .i32⟩
  | 42 => ⟨S1250000, .i1⟩
  | 43 => ⟨S_, .i32⟩
  | 44 => ⟨S1250000, .i32⟩
  | 45 => ⟨S1250000, .i32⟩
  | 46 => ⟨S1250000, .i32⟩
  | 47 => ⟨S1250000x1, .i32⟩
  | 48 => ⟨S1250000x64, .f32⟩
  | 49 => ⟨S1250000x1, .f32⟩
  | 50 => ⟨S1250000x64, .f32⟩
  | 51 => ⟨S1250000x64, .f32⟩
  | 52 => ⟨S_, .f32⟩
  | 53 => ⟨S100000x64, .f32⟩
  | 54 => ⟨S1250000x1, .i32⟩
  | 55 => ⟨S100000x64, .f32⟩
  | 56 => ⟨S100000, .f32⟩
  | 57 => ⟨S100000x1, .f32⟩
  | 58 => ⟨S100000x64, .f32⟩
  | 59 => ⟨S100000x64, .f32⟩
  | 60 => ⟨S100000x64, .f32⟩
  | 61 => ⟨S1x64, .f32⟩
  | 62 => ⟨S100000x64, .f32⟩
  | 63 => ⟨S100000x64, .f32⟩
  | 64 => ⟨S_, .f32⟩
  | 65 => ⟨S100000x64, .f32⟩
  | 66 => ⟨S100000x64, .f32⟩
  | 67 => ⟨S1x1250000, .i32⟩
  | 68 => ⟨S1250000, .i32⟩
  | 69 => ⟨S1x1250000, .i32⟩
  | 70 => ⟨S1250000, .i32⟩
  | 71 => ⟨S100000x64, .f32⟩
  | 72 => ⟨S_, .f32⟩
  | 73 => ⟨S1250000, .f32⟩
  | 74 => ⟨S_, .f32⟩
  | 75 => ⟨S100000, .f32⟩
  | 76 => ⟨S1250000x1, .i32⟩
  | 77 => ⟨S100000, .f32⟩
  | 78 => ⟨S_, .f32⟩
  | 79 => ⟨S100000, .f32⟩
  | 80 => ⟨S100000, .f32⟩
  | 81 => ⟨S100000, .f32⟩
  | 82 => ⟨S_, .i32⟩
  | 83 => ⟨S1250000, .i32⟩
  | 84 => ⟨S1250000, .i1⟩
  | 85 => ⟨S_, .i32⟩
  | 86 => ⟨S1250000, .i32⟩
  | 87 => ⟨S1250000, .i32⟩
  | 88 => ⟨S1250000, .i32⟩
  | 89 => ⟨S1250000x1, .i32⟩
  | 90 => ⟨S1250000, .f32⟩
  | 91 => ⟨S_, .i32⟩
  | 92 => ⟨S1250000, .i32⟩
  | 93 => ⟨S1250000, .i1⟩
  | 94 => ⟨S_, .i32⟩
  | 95 => ⟨S1250000, .i32⟩
  | 96 => ⟨S1250000, .i32⟩
  | 97 => ⟨S1250000, .i32⟩
  | 98 => ⟨S1250000x1, .i32⟩
  | 99 => ⟨S1250000, .f32⟩
  | 100 => ⟨S1250000, .f32⟩
  | 101 => ⟨S_, .i32⟩
  | 102 => ⟨S1250000, .i32⟩
  | 103 => ⟨S1250000, .i1⟩
  | 104 => ⟨S_, .i32⟩
  | 105 => ⟨S1250000, .i32⟩
  | 106 => ⟨S1250000, .i32⟩
  | 107 => ⟨S1250000, .i32⟩
  | 108 => ⟨S1250000x1, .i32⟩
  | 109 => ⟨S1250000x64, .f32⟩
  | 110 => ⟨S1250000x1, .f32⟩
  | 111 => ⟨S1250000x64, .f32⟩
  | 112 => ⟨S1250000x64, .f32⟩
  | 113 => ⟨S_, .f32⟩
  | 114 => ⟨S100000x64, .f32⟩
  | 115 => ⟨S1250000x1, .i32⟩
  | 116 => ⟨S100000x64, .f32⟩
  | 117 => ⟨S100000, .f32⟩
  | 118 => ⟨S100000x1, .f32⟩
  | 119 => ⟨S100000x64, .f32⟩
  | 120 => ⟨S100000x64, .f32⟩
  | 121 => ⟨S100000x64, .f32⟩
  | 122 => ⟨S1x64, .f32⟩
  | 123 => ⟨S100000x64, .f32⟩
  | 124 => ⟨S100000x64, .f32⟩
  | 125 => ⟨S_, .f32⟩
  | 126 => ⟨S100000, .f32⟩
  | 127 => ⟨S_, .f32⟩
  | _ => ⟨S100000x64, .f32⟩

abbrev hbmTy0_1 (i : Nat) : BufTy := match i % 128 with
  | 0 => ⟨S100000, .f32⟩
  | 1 => ⟨S100000, .f32⟩
  | 2 => ⟨S100000x1, .f32⟩
  | 3 => ⟨S100000x64, .f32⟩
  | 4 => ⟨S100000x64, .f32⟩
  | 5 => ⟨S100000x64, .f32⟩
  | 6 => ⟨S_, .f32⟩
  | 7 => ⟨S100000, .f32⟩
  | 8 => ⟨S100000x1, .f32⟩
  | 9 => ⟨S100000x1, .f32⟩
  | 10 => ⟨S100000x64, .f32⟩
  | 11 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call0_cst : Ref sig .tc := ⟨.hbm, 64, rfl⟩
abbrev main_call0_v0 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_8 : Ref sig .tc := ⟨.hbm, 72, rfl⟩
abbrev main_v54 : Ref sig .tc := ⟨.hbm, 73, rfl⟩
abbrev main_cst_9 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_10 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_c_11 : Ref sig .tc := ⟨.hbm, 82, rfl⟩
abbrev main_v61 : Ref sig .tc := ⟨.hbm, 83, rfl⟩
abbrev main_v62 : Ref sig .tc := ⟨.hbm, 84, rfl⟩
abbrev main_c_12 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_c_13 : Ref sig .tc := ⟨.hbm, 91, rfl⟩
abbrev main_v68 : Ref sig .tc := ⟨.hbm, 92, rfl⟩
abbrev main_v69 : Ref sig .tc := ⟨.hbm, 93, rfl⟩
abbrev main_c_14 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_c_15 : Ref sig .tc := ⟨.hbm, 101, rfl⟩
abbrev main_v76 : Ref sig .tc := ⟨.hbm, 102, rfl⟩
abbrev main_v77 : Ref sig .tc := ⟨.hbm, 103, rfl⟩
abbrev main_c_16 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_cst_17 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_call1_cst : Ref sig .tc := ⟨.hbm, 125, rfl⟩
abbrev main_call1_v0 : Ref sig .tc := ⟨.hbm, 126, rfl⟩
abbrev main_call1_cst_0 : Ref sig .tc := ⟨.hbm, 127, rfl⟩
abbrev main_call1_v1 : Ref sig .tc := ⟨.hbm, 128, rfl⟩
abbrev main_call1_v2 : Ref sig .tc := ⟨.hbm, 129, rfl⟩
abbrev main_call1_v3 : Ref sig .tc := ⟨.hbm, 130, rfl⟩
abbrev main_call1_v4 : Ref sig .tc := ⟨.hbm, 131, rfl⟩
abbrev main_call1_v5 : Ref sig .tc := ⟨.hbm, 132, rfl⟩
abbrev main_call1_v6 : Ref sig .tc := ⟨.hbm, 133, rfl⟩
abbrev main_call1_cst_1 : Ref sig .tc := ⟨.hbm, 134, rfl⟩
abbrev main_call1_v7 : Ref sig .tc := ⟨.hbm, 135, rfl⟩
abbrev main_call1_v8 : Ref sig .tc := ⟨.hbm, 136, rfl⟩
abbrev main_call1_v9 : Ref sig .tc := ⟨.hbm, 137, rfl⟩
abbrev main_call1_v10 : Ref sig .tc := ⟨.hbm, 138, rfl⟩
abbrev main_v97 : Ref sig .tc := ⟨.hbm, 139, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S_S100000 : S_.BroadcastsInDim S100000 (![] : Fin 0 → Fin S100000.rank)
  bcast_S1250000_S1250000x1_0 : S1250000.BroadcastsInDim S1250000x1 (![0] : Fin 1 → Fin S1250000x1.rank)
  bcast_S1250000x1_S1250000x64_0_1 : S1250000x1.BroadcastsInDim S1250000x64 (![0, 1] : Fin 2 → Fin S1250000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  dot_S100000x64_S64x64_S100000x64_1_0_0_1_n_n_wf : DotDims.WF S100000x64 S64x64 S100000x64 [1] [0] [0] [1] [] []
  scatter_S100000_S1250000x1_S1250000_n_0_0_1_wf : ScatterDims.WF S100000 S1250000x1 S1250000 [] [0] [0] 1
  gather_S100000_S1250000x1_S1250000_n_0_n_n_0_1_1_wf : GatherDims.WF S100000 S1250000x1 S1250000 [] [0] [] [0] [] 1 ![1]
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def gather_S100000_S1250000x1_S1250000_n_0_n_n_0_1_1 : GatherDims S100000 S1250000x1 S1250000 where
  offsetDims := []
  collapsedSliceDims := [0]
  operandBatchingDims := []
  startIndicesBatchingDims := []
  startIndexMap := [0]
  indexVectorDim := 1
  sliceSizes := ![1]
  wf := gather_S100000_S1250000x1_S1250000_n_0_n_n_0_1_1_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf

class Facts : Prop extends Facts₀ where

variable [Facts]
-- ==== Proof.Spec.lean ====
/-
  What both programs compute, as whole-array functions over the extended reals, over the literal shapes
  [100000, 64] (node features), [64, 64] (a weight matrix), [100000, 1] (a per-node factor) and [1, 64] (a bias row).

  * `MM x w`      : the matrix product, entry (r, q) = Σ_k x(r, k) · w(k, q).
  * `Comb a h d b`: the graph-convolution combine, entry (r, q) = (a(r, q) + h(r, q) · d(r, 0)) + b(0, q):
                    the aggregated neighbour sum, plus the node's own projected features scaled by its
                    inverse degree, plus the bias.
  * `Relu v`      : entry-wise max(v, 0), the zero being the f32 zero word read at the extended reals.
  * `LS v`        : the row-wise log-softmax, entry (r, q) = (v(r, q) − M r) − log (Σ_k exp (v(r, k) − M r)),
                    M r the maximum of row r taken as a fold of `max` from the word −∞.
  Each is given on coordinates (`…At`) and as an array; the array form at `ix2 r q` is the coordinate form by `rfl`.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- An f32 array of shape [r, c] read at the extended reals. -/
abbrev Arr (r c : Nat) : Type := FVec Ideal ⟨2, ![r, c]⟩ .f32

/-- The row of an index of a [100000, 64] array. -/
abbrev rowOf (i : (⟨2, ![100000, 64]⟩ : Shape).Idx) : Fin 100000 := ⟨(i 0).val, (i 0).isLt⟩
/-- The column of an index of a [100000, 64] array. -/
abbrev colOf (i : (⟨2, ![100000, 64]⟩ : Shape).Idx) : Fin 64 := ⟨(i 1).val, (i 1).isLt⟩

theorem ix2_row_col (i : (⟨2, ![100000, 64]⟩ : Shape).Idx) : ix2 (rowOf i) (colOf i) = i := by
  funext a; match a with
  | ⟨0, _⟩ => rfl
  | ⟨1, _⟩ => rfl

/-! ## The matrix product -/

def mmAt (x : Arr 100000 64) (w : Arr 64 64) (r : Fin 100000) (q : Fin 64) : EReal :=
  ∑ k : Fin 64, x (ix2 r k) * w (ix2 k q)

def MM (x : Arr 100000 64) (w : Arr 64 64) : Arr 100000 64 := fun i => mmAt x w (rowOf i) (colOf i)

theorem MM_ix2 (x : Arr 100000 64) (w : Arr 64 64) (r : Fin 100000) (q : Fin 64) : MM x w (ix2 r q) = mmAt x w r q := rfl

/-! ## The combine -/

def combAt (a h : Arr 100000 64) (d : Arr 100000 1) (b : Arr 1 64) (r : Fin 100000) (q : Fin 64) : EReal :=
  (a (ix2 r q) + h (ix2 r q) * d (ix2 r (0 : Fin 1))) + b (ix2 (0 : Fin 1) q)

def Comb (a h : Arr 100000 64) (d : Arr 100000 1) (b : Arr 1 64) : Arr 100000 64 :=
  fun i => combAt a h d b (rowOf i) (colOf i)

theorem Comb_ix2 (a h : Arr 100000 64) (d : Arr 100000 1) (b : Arr 1 64) (r : Fin 100000) (q : Fin 64) :
    Comb a h d b (ix2 r q) = combAt a h d b r q := rfl

/-! ## The rectifier -/

def Relu (v : Arr 100000 64) : Arr 100000 64 := fun i => max (v i) (Ideal.ofBits .f32 0x00000000#32)

/-! ## The row-wise log-softmax -/

/-- The maximum of row `r`: the fold of `max` over the 64 columns from the word −∞. -/
def rowMax (v : Arr 100000 64) (r : Fin 100000) : EReal :=
  (Finset.univ : Finset (Fin 64)).fold max (Ideal.ofBits .f32 0xFF800000#32) (fun k => v (ix2 r k))

/-- The sum over row `r` of the exponentials of the entries less the row's maximum. -/
def rowSumExp (v : Arr 100000 64) (r : Fin 100000) : EReal :=
  ∑ k : Fin 64, Ideal.exp (v (ix2 r k) - rowMax v r)

def lsAt (v : Arr 100000 64) (r : Fin 100000) (q : Fin 64) : EReal :=
  (v (ix2 r q) - rowMax v r) - Ideal.log (rowSumExp v r)

def LS (v : Arr 100000 64) : Arr 100000 64 := fun i => lsAt v (rowOf i) (colOf i)

theorem LS_ix2 (v : Arr 100000 64) (r : Fin 100000) (q : Fin 64) : LS v (ix2 r q) = lsAt v r q := rfl

end Cert.Spec

end
-- ==== Proof.RefLin.lean ====
/-
  The reference's dense stages as whole-array functions of its earlier stages, over the extended reals.
  * Each `dot_general` of a [100000, 64] array with a [64, 64] array, contracting the 64 features, is the matrix
    product: entry (r, q) is Σ_k x(r, k) · w(k, q).
  * Each layer's `agg + xw · (inv_sqrt²)[:, None] + b` is the combine of the aggregated sums, the projected features,
    the squared inverse root of the degree as a [100000, 1] column and the bias as a [1, 64] row: the two later
    broadcasts to [100000, 64] read the column at (r, 0) and the row at (0, q).
  * The first layer's `relu` is the entry-wise maximum with the zero word.
-/
import proofs.«165799_j33517924778672_1_alg».proof.Proof.RefRead
import proofs.«165799_j33517924778672_1_alg».proof.Proof.Spec

noncomputable section

namespace Cert.ReferenceIdeal.RefLin

open Cert.ReferenceIdeal Cert.ReferenceIdeal.ReadP Idealize.ShloMosaic Idealize.ShloMosaic.ValueIdx Cert.Spec

/-! ## Index bookkeeping: the stages' index functions at an index are its row and column -/

theorem lidx_eq (i : S100000x64.Idx) (k : Fin 64) : lidx_main_v4 i k = ix2 (rowOf i) k :=
  funext fun a => Fin.ext (by
    match a with
    | ⟨0, _⟩ => rfl
    | ⟨1, _⟩ => rfl)

theorem ridx_eq (i : S100000x64.Idx) (k : Fin 64) : ridx_main_v4 i k = ix2 k (colOf i) :=
  funext fun a => Fin.ext (by
    match a with
    | ⟨0, _⟩ => rfl
    | ⟨1, _⟩ => rfl)

theorem col_idx_eq (i : S100000x64.Idx) : idx_main_v42 i = ix2 (rowOf i) (0 : Fin 1) :=
  funext fun a => Fin.ext (by
    match a with
    | ⟨0, _⟩ => rfl
    | ⟨1, _⟩ => rfl)

theorem row_idx_eq (i : S100000x64.Idx) : idx_main_v46 i = ix2 (0 : Fin 1) (colOf i) :=
  funext fun a => Fin.ext (by
    match a with
    | ⟨0, _⟩ => rfl
    | ⟨1, _⟩ => rfl)

/-! ## The matrix products -/

/-- A `dot_general` contracting the features is the matrix product. -/
theorem v4_eq (x0 : (⟨S100000x64, .f32⟩ : BufTy).Contents (Elt Ideal)) (x2 : (⟨S64x64, .f32⟩ : BufTy).Contents (Elt Ideal)) : val_main_v4 (F := Ideal) x0 x2 = MM x0 x2 := by
  funext i
  rw [val_main_v4_apply]
  show _ = mmAt x0 x2 (rowOf i) (colOf i)
  unfold mmAt
  exact Finset.sum_congr rfl fun k _ => by rw [lidx_eq, ridx_eq]

/-- The second layer's projection is the matrix product of the rectified first layer with the second weights. -/
theorem v53_eq (x0 : (⟨S100000x64, .f32⟩ : BufTy).Contents (Elt Ideal)) (x1 : (⟨S2x1250000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) :
    val_main_v53 (F := Ideal) x0 x1 x2 x3 x4 = MM (val_main_v48 (F := Ideal) x0 x1 x2 x3) x4 :=
  v4_eq (val_main_v48 (F := Ideal) x0 x1 x2 x3) x4

/-! ## The combines and the rectifier -/

/-- The first layer before its rectifier. -/
theorem v47_eq (x0 : (⟨S100000x64, .f32⟩ : BufTy).Contents (Elt Ideal)) (x1 : (⟨S2x1250000, .i32⟩ : BufTy).Contents (Elt Ideal)) (x2 : (⟨S64x64, .f32⟩ : BufTy).Contents (Elt Ideal)) (x3 : (⟨S64, .f32⟩ : BufTy).Contents (Elt Ideal)) :
    val_main_v47 (F := Ideal) x0 x1 x2 x3
      = Comb (val_main_v39 (F := Ideal) x0 x1 x2) (val_main_v4 (F := Ideal) x0 x2) (val_main_v41 (F := Ideal) x1) (val_main_v45 (F := Ideal) x3) := by
  funext i
  rw [val_main_v47_apply, val_main_v44_apply, val_main_v43_apply, val_main_v42_apply, val_main_v46_apply, col_idx_eq, row_idx_eq]
  show _ = combAt _ _ _ _ (rowOf i) (colOf i)
  unfold combAt
  rw [ix2_row_col]
  rfl

/-- The first layer's rectifier. -/
theorem v48_eq (x0 : (⟨S100000x64, .f32⟩ : BufTy).Contents (Elt Ideal)) (x1 : (⟨S2x1250000, .i32⟩ : BufTy).Contents (Elt Ideal)) (x2 : (⟨S64x64, .f32⟩ : BufTy).Contents (Elt Ideal)) (x3 : (⟨S64, .f32⟩ : BufTy).Contents (Elt Ideal)) :
    val_main_v48 (F := Ideal) x0 x1 x2 x3 = Relu (val_main_v47 (F := Ideal) x0 x1 x2 x3) := by
  funext i
  rw [val_main_v48_apply, val_main_call0_v0_apply, val_main_call0_cst_apply]
  rfl

/-- The second layer. -/
theorem v96_eq (x0 : (⟨S100000x64, .f32⟩ : BufTy).Contents (Elt Ideal)) (x1 : (⟨S2x1250000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) :
    val_main_v96 (F := Ideal) x0 x1 x2 x3 x4 x5
      = Comb (val_main_v88 (F := Ideal) x0 x1 x2 x3 x4) (val_main_v53 (F := Ideal) x0 x1 x2 x3 x4) (val_main_v90 (F := Ideal) x1) (val_main_v94 (F := Ideal) x5) := by
  funext i
  rw [val_main_v96_apply, val_main_v93_apply, val_main_v92_apply, val_main_v91_apply, val_main_v95_apply]
  have hc : idx_main_v91 i = ix2 (rowOf i) (0 : Fin 1) := funext fun a => Fin.ext (by
    match a with
    | ⟨0, _⟩ => rfl
    | ⟨1, _⟩ => rfl)
  have hr : idx_main_v95 i = ix2 (0 : Fin 1) (colOf i) := funext fun a => Fin.ext (by
    match a with
    | ⟨0, _⟩ => rfl
    | ⟨1, _⟩ => rfl)
  rw [hc, hr]
  show _ = combAt _ _ _ _ (rowOf i) (colOf i)
  unfold combAt
  rw [ix2_row_col]
  rfl

end Cert.ReferenceIdeal.RefLin

end
-- ==== Proof.Layout.lean ====
/-
  Two layout facts that join the two programs' spellings of the same array.
  A vector y of 100000 entries laid out as a [100000, 1] column is the same array whether it is made by a reshape (same
  row-major position: entry (r, 0) is y r) or by a broadcast that sends the vector's axis to axis 0 (entry (r, 0) is
  y r). Likewise a vector b of 64 entries as a [1, 64] row: a reshape and a broadcast sending its axis to axis 1 both
  put b q at (0, q).
-/
import Idealize.ShloMosaic.Lib.Pipeline.Value
import Idealize.ShloMosaic.Lib.ValueIdx

noncomputable section

namespace Cert.Layout

open Idealize.ShloMosaic Idealize.ShloMosaic.ValueIdx

variable {α : Type}

/-- As a column: the reshape and the axis-0 broadcast of a 100000-vector agree. -/
theorem column_eq (y : (⟨1, ![100000]⟩ : Shape).Idx → α)
    (hc : (⟨1, ![100000]⟩ : Shape).ShapeCasts ⟨2, ![100000, 1]⟩)
    (hb : (⟨1, ![100000]⟩ : Shape).BroadcastsInDim ⟨2, ![100000, 1]⟩ ![0]) :
    shapeCast ⟨2, ![100000, 1]⟩ y hc = broadcastInDim ⟨2, ![100000, 1]⟩ ![0] hb y := by
  funext j
  obtain ⟨r, z, rfl⟩ : ∃ (r : Fin 100000) (z : Fin 1), j = ix2 r z := ⟨j 0, j 1, eq_ix2 j⟩
  have hz : z.val = 0 := by have := z.isLt; omega
  refine (shapeCast_apply y hc (ix2 r z) (ix1 r) ?_).trans (broadcastInDim_apply ![0] hb y (ix2 r z) (ix1 r) ?_).symm
  · rw [Shape.rowMajor_val_one, Shape.rowMajor_val_two]
    show r.val = r.val * 1 + z.val
    omega
  · intro a
    match a with
    | ⟨0, _⟩ => rfl

/-- As a row: the reshape and the axis-1 broadcast of a 64-vector agree. -/
theorem row_eq (b : (⟨1, ![64]⟩ : Shape).Idx → α)
    (hc : (⟨1, ![64]⟩ : Shape).ShapeCasts ⟨2, ![1, 64]⟩)
    (hb : (⟨1, ![64]⟩ : Shape).BroadcastsInDim ⟨2, ![1, 64]⟩ ![1]) :
    shapeCast ⟨2, ![1, 64]⟩ b hc = broadcastInDim ⟨2, ![1, 64]⟩ ![1] hb b := by
  funext j
  obtain ⟨z, q, rfl⟩ : ∃ (z : Fin 1) (q : Fin 64), j = ix2 z q := ⟨j 0, j 1, eq_ix2 j⟩
  have hz : z.val = 0 := by have := z.isLt; omega
  refine (shapeCast_apply b hc (ix2 z q) (ix1 q) ?_).trans (broadcastInDim_apply ![1] hb b (ix2 z q) (ix1 q) ?_).symm
  · rw [Shape.rowMajor_val_one, Shape.rowMajor_val_two]
    show q.val = z.val * 64 + q.val
    omega
  · intro a
    match a with
    | ⟨0, _⟩ => rfl

end Cert.Layout

end
-- ==== Proof.Reg0.lean ====
/-
  Region 0, the first linear projection: a grid of 50 points, point t staging rows [2000·t, 2000·t + 2000) of the
  node features and the whole 64 × 64 weight matrix, and storing the product of the two blocks (the change of
  float format of both operands is the identity on the extended reals, the accumulator is the zero array).
  So entry (p, q) of what point t flushes is Σ_k x(2000·t + p, k) · w(k, q): block t of the matrix product of the
  two arrays as the region finds them. The 50 blocks tile the 100000 rows, so after the region the output array IS
  that matrix product.
-/
import proofs.«165799_j33517924778672_1_alg».proof.Proof.Gen.KernelIdeal.Frame
import proofs.«165799_j33517924778672_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Reg0

open Cert.KernelIdeal Cert.KernelIdeal.Gen Idealize.ShloMosaic Idealize.ShloMosaic.TcCoe Idealize.SL.Sem
open Idealize.ShloMosaic.Pipeline (Dat)
open Idealize.ShloMosaic.ValueIdx Cert.Spec

/-! ## The product of two blocks at an entry -/

theorem lhs_0 (i : S2000x64.Idx) (q : dot_S2000x64_S64x64_S2000x64_1_0_0_1_n_n.contr.Idx) : (dot_S2000x64_S64x64_S2000x64_1_0_0_1_n_n.lhsIdx i q 0).val = (i 0).val := by
  unfold DotDims.lhsIdx
  rw [dif_neg (show ¬(0 : Fin S2000x64.rank) ∈ dot_S2000x64_S64x64_S2000x64_1_0_0_1_n_n.lhsBatch by decide), dif_pos (show (0 : Fin S2000x64.rank) ∈ dot_S2000x64_S64x64_S2000x64_1_0_0_1_n_n.lhsNonContracting by decide)]
  rfl
theorem lhs_1 (i : S2000x64.Idx) (q : dot_S2000x64_S64x64_S2000x64_1_0_0_1_n_n.contr.Idx) : (dot_S2000x64_S64x64_S2000x64_1_0_0_1_n_n.lhsIdx i q 1).val = (q ⟨0, by decide⟩).val :=
  dot_S2000x64_S64x64_S2000x64_1_0_0_1_n_n.lhsIdx_val_of_single rfl i q
theorem rhs_0 (i : S2000x64.Idx) (q : dot_S2000x64_S64x64_S2000x64_1_0_0_1_n_n.contr.Idx) : (dot_S2000x64_S64x64_S2000x64_1_0_0_1_n_n.rhsIdx i q 0).val = (q ⟨0, by decide⟩).val :=
  dot_S2000x64_S64x64_S2000x64_1_0_0_1_n_n.rhsIdx_val_of_single rfl i q
theorem rhs_1 (i : S2000x64.Idx) (q : dot_S2000x64_S64x64_S2000x64_1_0_0_1_n_n.contr.Idx) : (dot_S2000x64_S64x64_S2000x64_1_0_0_1_n_n.rhsIdx i q 1).val = (i 1).val := by
  unfold DotDims.rhsIdx
  rw [dif_neg (show ¬(1 : Fin S64x64.rank) ∈ dot_S2000x64_S64x64_S2000x64_1_0_0_1_n_n.rhsBatch by decide), dif_pos (show (1 : Fin S64x64.rank) ∈ dot_S2000x64_S64x64_S2000x64_1_0_0_1_n_n.rhsNonContracting by decide)]
  rfl

/-- The stored value at entry (p, q): the sum over k of the row block's (p, k) times the weight's (k, q). -/
theorem pay_ix2 (x0 : Vec Ideal S2000x64 .f32) (x1 : Vec Ideal S64x64 .f32) (p : Fin 2000) (q : Fin 64) :
    k0_pay1 (F := Ideal) x0 x1 (ix2 p q) = ∑ k : Fin 64, x0 (ix2 p k) * x1 (ix2 k q) := by
  unfold k0_pay1
  refine (Ideal.matmul_constant_zero_apply dot_S2000x64_S64x64_S2000x64_1_0_0_1_n_n none _ _ (ix2 p q)).trans ?_
  rw [← Equiv.sum_comp (ValueIdx.contrEquiv1 dot_S2000x64_S64x64_S2000x64_1_0_0_1_n_n 64 rfl rfl).symm]
  refine Finset.sum_congr rfl fun k _ => ?_
  have hk := ValueIdx.contrEquiv1_symm_val dot_S2000x64_S64x64_S2000x64_1_0_0_1_n_n 64 rfl rfl k
  have el : dot_S2000x64_S64x64_S2000x64_1_0_0_1_n_n.lhsIdx (ix2 p q) ((ValueIdx.contrEquiv1 dot_S2000x64_S64x64_S2000x64_1_0_0_1_n_n 64 rfl rfl).symm k) = ix2 p k := funext fun a => Fin.ext (by
    match a with
    | ⟨0, _⟩ => exact lhs_0 _ _
    | ⟨1, _⟩ => exact (lhs_1 _ _).trans hk)
  have er : dot_S2000x64_S64x64_S2000x64_1_0_0_1_n_n.rhsIdx (ix2 p q) ((ValueIdx.contrEquiv1 dot_S2000x64_S64x64_S2000x64_1_0_0_1_n_n 64 rfl rfl).symm k) = ix2 k q := funext fun a => Fin.ext (by
    match a with
    | ⟨0, _⟩ => exact (rhs_0 _ _).trans hk
    | ⟨1, _⟩ => exact rhs_1 _ _)
  rw [el, er]
  rfl

/-! ## The blocks a point reads -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the feature window and the output window sit at block row t, column
    block 0; the weight window at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row 2000·t + p of the array, for a point t of the 50 and a row p of its block. -/
abbrev rowAt (t : Fin cfg0.N) (p : Fin 2000) : Fin 100000 :=
  ⟨t.val * 2000 + p.val, by have ht : t.val < 50 := t.isLt; have hp := p.isLt; omega⟩

/-- The feature block at point t, entry (p, k), is the array's entry (2000·t + p, k). -/
theorem blk0_ix2 (c : Dev nD) (t : Fin cfg0.N) (p : Fin 2000) (k : Fin 64) :
    iblk0 V c 0 t (ix2 p k) = V c main_arg0 (ix2 (rowAt t p) k) := by
  obtain ⟨e0, e1, -, -, -, -⟩ := idx_facts t
  show V c main_arg0 (((cfg0.win 0).blk t).view.emb (ix2 p k)) = V c main_arg0 (ix2 (rowAt t p) k)
  refine congrArg (V c main_arg0) ?_
  funext a; apply Fin.ext
  match a with
  | ⟨0, _⟩ => show win0_0.index t (0 : Fin 2) * 2000 + 1 * p.val = t.val * 2000 + p.val; omega
  | ⟨1, _⟩ => show win0_0.index t (1 : Fin 2) * 64 + 1 * k.val = k.val; omega

/-- The weight block at every point is the whole weight array. -/
theorem blk1_ix2 (c : Dev nD) (t : Fin cfg0.N) (k : Fin 64) (q : Fin 64) :
    iblk0 V c 1 t (ix2 k q) = V c main_arg2 (ix2 k q) := by
  obtain ⟨-, -, e2, e3, -, -⟩ := idx_facts t
  show V c main_arg2 (((cfg0.win 1).blk t).view.emb (ix2 k q)) = V c main_arg2 (ix2 k q)
  refine congrArg (V c main_arg2) ?_
  funext a; apply Fin.ext
  match a with
  | ⟨0, _⟩ => show win0_1.index t (0 : Fin 2) * 64 + 1 * k.val = k.val; omega
  | ⟨1, _⟩ => show win0_1.index t (1 : Fin 2) * 64 + 1 * q.val = q.val; omega

/-! ## What a point flushes, the cover, and the array after the region -/

/-- Point t writes back block t of the matrix product of the two arrays as the region finds them. -/
theorem flushed_eq (c : Dev nD) (t : Fin cfg0.N) :
    (dat0 V c).flushed 2 t = ((cfg0.win 2).blk t).view.read (Elt Ideal) (MM (V c main_arg0) (V c main_arg2)) := by
  show (cfg0.win 2).cut (grid0.coords t) ((dat0 V c).after 2 t) = _
  rw [after0_2]
  unfold out0_2
  rw [View.canon_unit_zero hz]
  simp only [View.ld_unit_zero (S := S2000x64) hz, View.ld_unit_zero (S := S64x64) hz]
  obtain ⟨-, -, -, -, e4, e5⟩ := idx_facts t
  funext j
  obtain ⟨p, q, rfl⟩ : ∃ (p : Fin 2000) (q : Fin 64), j = ix2 p q := ⟨j 0, j 1, eq_ix2 j⟩
  have hemb : ((cfg0.win 2).blk t).view.emb (ix2 p q) = ix2 (rowAt t p) q := by
    funext a; apply Fin.ext
    match a with
    | ⟨0, _⟩ => show win0_2.index t (0 : Fin 2) * 2000 + 1 * p.val = t.val * 2000 + p.val; omega
    | ⟨1, _⟩ => show win0_2.index t (1 : Fin 2) * 64 + 1 * q.val = q.val; omega
  show k0_pay1 (F := Ideal) (iblk0 V c 0 t) (iblk0 V c 1 t) (ix2 p q) = MM (V c main_arg0) (V c main_arg2) (((cfg0.win 2).blk t).view.emb (ix2 p q))
  rw [hemb, MM_ix2]
  refine (pay_ix2 (iblk0 V c 0 t) (iblk0 V c 1 t) p q).trans ?_
  unfold mmAt
  exact Finset.sum_congr rfl fun k _ => by rw [blk0_ix2 V c t p k, blk1_ix2 V c t k q]

/-- An index of the output array is in point t's block iff each coordinate is in the block's range on its axis. -/
theorem mem_blk (t : Fin cfg0.N) (i : S100000x64.Idx) :
    i ∈ ((cfg0.win 2).blk t).view.set ↔ ∀ a : Fin 2, win0_2.index t a * S2000x64.size a ≤ (i a).val ∧ (i a).val < win0_2.index t a * S2000x64.size a + S2000x64.size a := by
  show i ∈ ((View.whole main_v4).slice (win0_2.rect t)).set ↔ _
  rw [View.set_slice_whole, Rect.mem_set_unit]
  exact Iff.rfl

/-- Every index of the output array lies in the block of the point its row falls in. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  let t : Fin cfg0.N := ⟨(i 0).val / 2000, by show (i 0).val / 2000 < 50; omega⟩
  obtain ⟨-, -, -, -, e4, e5⟩ := idx_facts t
  have ht : t.val = (i 0).val / 2000 := rfl
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 64 ≤ (i 1).val ∧ (i 1).val < win0_2.index t (1 : Fin 2) * 64 + 64; omega

/-- After region 0 its output array holds the matrix product of the feature array and the weight array as the
    region found them. -/
theorem final (c : Dev nD) : (dat0 V c).arrAt 2 cfg0.N = MM (V c main_arg0) (V c main_arg2) :=
  (dat0 V c).arrAt_eq_of_cover 2 (MM (V c main_arg0) (V c main_arg2)) (fun t _ => flushed_eq V c t) cover

end Cert.KernelIdeal.Reg0

end
-- ==== Proof.Reg1.lean ====
/-
  Region 1, the first layer's combine with its rectifier: a grid of 50 points, point t on rows [2000·t, 2000·t + 2000).
  Entry (p, q) of what point t stores is max ((a(p, q) + h(p, q) · d(p, 0)) + b(0, q), 0), with a the
  aggregated neighbour sums, h the projected features, d the per-node factor (a [2000, 1] column block broadcast along
  the 64 features) and b the bias (a [1, 64] row broadcast along the 2000 rows); the casts of the blocks to their own
  shapes are identities. The a, h and output windows sit at block row t, the d window at block row t of its [100000, 1]
  array, the bias window at its one block. The 50 blocks tile the 100000 rows, so after the region the output array is
  the rectified combine of the four arrays as the region found them.
-/
import proofs.«165799_j33517924778672_1_alg».proof.Proof.Gen.KernelIdeal.Frame
import proofs.«165799_j33517924778672_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Reg1

open Cert.KernelIdeal Cert.KernelIdeal.Gen Idealize.ShloMosaic Idealize.ShloMosaic.TcCoe Idealize.SL.Sem
open Idealize.ShloMosaic.Pipeline (Dat)
open Idealize.ShloMosaic.ValueIdx Cert.Spec

/-! ## The stored value at an entry -/

/-- The per-node column broadcast along the features, read at (p, q): the column's entry (p, 0). -/
theorem bcast_col (x2 : Vec Ideal S2000x1 .f32) (p : Fin 2000) (q : Fin 64) :
    broadcastTo S2000x64 x2 broadcasts_S2000x1_S2000x64 (ix2 p q) = x2 (ix2 p (0 : Fin 1)) :=
  broadcastTo_apply x2 broadcasts_S2000x1_S2000x64 (ix2 p q) (ix2 p (0 : Fin 1)) (fun a => by
    match a with
    | ⟨0, _⟩ => rfl
    | ⟨1, _⟩ => rfl)

/-- The bias row broadcast along the rows, read at (p, q): the row's entry (0, q). -/
theorem bcast_row (x3 : Vec Ideal S1x64 .f32) (p : Fin 2000) (q : Fin 64) :
    broadcastTo S2000x64 x3 broadcasts_S1x64_S2000x64 (ix2 p q) = x3 (ix2 (0 : Fin 1) q) :=
  broadcastTo_apply x3 broadcasts_S1x64_S2000x64 (ix2 p q) (ix2 (0 : Fin 1) q) (fun a => by
    match a with
    | ⟨0, _⟩ => rfl
    | ⟨1, _⟩ => rfl)

theorem pay_ix2 (x0 x1 : Vec Ideal S2000x64 .f32) (x2 : Vec Ideal S2000x1 .f32) (x3 : Vec Ideal S1x64 .f32) (p : Fin 2000) (q : Fin 64) :
    k1_pay1 (F := Ideal) x0 x1 x2 x3 (ix2 p q)
      = max ((x0 (ix2 p q) + x1 (ix2 p q) * x2 (ix2 p (0 : Fin 1))) + x3 (ix2 (0 : Fin 1) q)) (Ideal.ofBits .f32 0x00000000#32) := by
  unfold k1_pay1
  simp only [shapeCast_self]
  show max ((x0 (ix2 p q) + x1 (ix2 p q) * broadcastTo S2000x64 x2 broadcasts_S2000x1_S2000x64 (ix2 p q)) + broadcastTo S2000x64 x3 broadcasts_S1x64_S2000x64 (ix2 p q)) (Ideal.ofBits .f32 0x00000000#32) = _
  rw [bcast_col, bcast_row]

/-! ## The blocks a point reads -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Row 2000·t + p of the arrays, for a point t of the 50 and a row p of its block. -/
abbrev rowAt (t : Fin cfg1.N) (p : Fin 2000) : Fin 100000 :=
  ⟨t.val * 2000 + p.val, by have ht : t.val < 50 := t.isLt; have hp := p.isLt; omega⟩

/-- The aggregated block at point t, entry (p, q), is the array's entry (2000·t + p, q). -/
theorem blk0_ix2 (c : Dev nD) (t : Fin cfg1.N) (p : Fin 2000) (q : Fin 64) :
    iblk1 V c 0 t (ix2 p q) = V c main_v39 (ix2 (rowAt t p) q) := by
  obtain ⟨e0, e1, -⟩ := idx_facts t
  show V c main_v39 (((cfg1.win 0).blk t).view.emb (ix2 p q)) = V c main_v39 (ix2 (rowAt t p) q)
  refine congrArg (V c main_v39) ?_
  funext a; apply Fin.ext
  match a with
  | ⟨0, _⟩ => show win1_0.index t (0 : Fin 2) * 2000 + 1 * p.val = t.val * 2000 + p.val; omega
  | ⟨1, _⟩ => show win1_0.index t (1 : Fin 2) * 64 + 1 * q.val = q.val; omega

/-- The projected-feature block at point t, entry (p, q), is the array's entry (2000·t + p, q). -/
theorem blk1_ix2 (c : Dev nD) (t : Fin cfg1.N) (p : Fin 2000) (q : Fin 64) :
    iblk1 V c 1 t (ix2 p q) = V c main_v4 (ix2 (rowAt t p) q) := by
  obtain ⟨-, -, e2, e3, -⟩ := idx_facts t
  show V c main_v4 (((cfg1.win 1).blk t).view.emb (ix2 p q)) = V c main_v4 (ix2 (rowAt t p) q)
  refine congrArg (V c main_v4) ?_
  funext a; apply Fin.ext
  match a with
  | ⟨0, _⟩ => show win1_1.index t (0 : Fin 2) * 2000 + 1 * p.val = t.val * 2000 + p.val; omega
  | ⟨1, _⟩ => show win1_1.index t (1 : Fin 2) * 64 + 1 * q.val = q.val; omega

/-- The per-node column block at point t, entry (p, 0), is the column array's entry (2000·t + p, 0). -/
theorem blk2_ix2 (c : Dev nD) (t : Fin cfg1.N) (p : Fin 2000) :
    iblk1 V c 2 t (ix2 p (0 : Fin 1)) = V c main_v41 (ix2 (rowAt t p) (0 : Fin 1)) := by
  obtain ⟨-, -, -, -, e4, e5, -⟩ := idx_facts t
  show V c main_v41 (((cfg1.win 2).blk t).view.emb (ix2 p (0 : Fin 1))) = V c main_v41 (ix2 (rowAt t p) (0 : Fin 1))
  refine congrArg (V c main_v41) ?_
  funext a; apply Fin.ext
  match a with
  | ⟨0, _⟩ => show win1_2.index t (0 : Fin 2) * 2000 + 1 * p.val = t.val * 2000 + p.val; omega
  | ⟨1, _⟩ => show win1_2.index t (1 : Fin 2) * 1 + 1 * 0 = 0; omega

/-- The bias block at every point is the whole bias row. -/
theorem blk3_ix2 (c : Dev nD) (t : Fin cfg1.N) (q : Fin 64) :
    iblk1 V c 3 t (ix2 (0 : Fin 1) q) = V c main_v42 (ix2 (0 : Fin 1) q) := by
  obtain ⟨-, -, -, -, -, -, e6, e7, -⟩ := idx_facts t
  show V c main_v42 (((cfg1.win 3).blk t).view.emb (ix2 (0 : Fin 1) q)) = V c main_v42 (ix2 (0 : Fin 1) q)
  refine congrArg (V c main_v42) ?_
  funext a; apply Fin.ext
  match a with
  | ⟨0, _⟩ => show win1_3.index t (0 : Fin 2) * 1 + 1 * 0 = 0; omega
  | ⟨1, _⟩ => show win1_3.index t (1 : Fin 2) * 64 + 1 * q.val = q.val; omega

/-! ## What a point flushes, the cover, and the array after the region -/

/-- Point t writes back block t of the rectified combine of the four arrays as the region finds them. -/
theorem flushed_eq (c : Dev nD) (t : Fin cfg1.N) :
    (dat1 V c).flushed 4 t = ((cfg1.win 4).blk t).view.read (Elt Ideal) (Relu (Comb (V c main_v39) (V c main_v4) (V c main_v41) (V c main_v42))) := by
  show (cfg1.win 4).cut (grid1.coords t) ((dat1 V c).after 4 t) = _
  rw [after1_4]
  unfold out1_4
  rw [View.canon_unit_zero hz]
  simp only [View.ld_unit_zero (S := S2000x64) hz, View.ld_unit_zero (S := S2000x1) hz, View.ld_unit_zero (S := S1x64) hz]
  obtain ⟨-, -, -, -, -, -, -, -, e8, e9⟩ := idx_facts t
  funext j
  obtain ⟨p, q, rfl⟩ : ∃ (p : Fin 2000) (q : Fin 64), j = ix2 p q := ⟨j 0, j 1, eq_ix2 j⟩
  have hemb : ((cfg1.win 4).blk t).view.emb (ix2 p q) = ix2 (rowAt t p) q := by
    funext a; apply Fin.ext
    match a with
    | ⟨0, _⟩ => show win1_4.index t (0 : Fin 2) * 2000 + 1 * p.val = t.val * 2000 + p.val; omega
    | ⟨1, _⟩ => show win1_4.index t (1 : Fin 2) * 64 + 1 * q.val = q.val; omega
  show k1_pay1 (F := Ideal) (iblk1 V c 0 t) (iblk1 V c 1 t) (iblk1 V c 2 t) (iblk1 V c 3 t) (ix2 p q)
    = Relu (Comb (V c main_v39) (V c main_v4) (V c main_v41) (V c main_v42)) (((cfg1.win 4).blk t).view.emb (ix2 p q))
  rw [hemb]
  refine (pay_ix2 (iblk1 V c 0 t) (iblk1 V c 1 t) (iblk1 V c 2 t) (iblk1 V c 3 t) p q).trans ?_
  rw [blk0_ix2 V c t p q, blk1_ix2 V c t p q, blk2_ix2 V c t p, blk3_ix2 V c t q]
  rfl

/-- An index of the output array is in point t's block iff each coordinate is in the block's range on its axis. -/
theorem mem_blk (t : Fin cfg1.N) (i : S100000x64.Idx) :
    i ∈ ((cfg1.win 4).blk t).view.set ↔ ∀ a : Fin 2, win1_4.index t a * S2000x64.size a ≤ (i a).val ∧ (i a).val < win1_4.index t a * S2000x64.size a + S2000x64.size a := by
  show i ∈ ((View.whole main_v43).slice (win1_4.rect t)).set ↔ _
  rw [View.set_slice_whole, Rect.mem_set_unit]
  exact Iff.rfl

/-- Every index of the output array lies in the block of the point its row falls in. -/
theorem cover (i : S100000x64.Idx) : ∃ t : Fin cfg1.N, (cfg1.win 4).flush t = true ∧ i ∈ ((cfg1.win 4).blk t).view.set := by
  have hi0 : (i 0).val < 100000 := (i 0).isLt
  have hi1 : (i 1).val < 64 := (i 1).isLt
  let t : Fin cfg1.N := ⟨(i 0).val / 2000, by show (i 0).val / 2000 < 50; omega⟩
  obtain ⟨-, -, -, -, -, -, -, -, e8, e9⟩ := idx_facts t
  have ht : t.val = (i 0).val / 2000 := rfl
  refine ⟨t, flush1_4 t, ?_⟩
  rw [mem_blk]
  intro a
  match a with
  | ⟨0, _⟩ => show win1_4.index t (0 : Fin 2) * 2000 ≤ (i 0).val ∧ (i 0).val < win1_4.index t (0 : Fin 2) * 2000 + 2000; omega
  | ⟨1, _⟩ => show win1_4.index t (1 : Fin 2) * 64 ≤ (i 1).val ∧ (i 1).val < win1_4.index t (1 : Fin 2) * 64 + 64; omega

/-- After the region its output array holds the rectified combine of the four arrays as the region found them. -/
theorem final (c : Dev nD) : (dat1 V c).arrAt 4 cfg1.N = Relu (Comb (V c main_v39) (V c main_v4) (V c main_v41) (V c main_v42)) :=
  (dat1 V c).arrAt_eq_of_cover 4 _ (fun t _ => flushed_eq V c t) cover

end Cert.KernelIdeal.Reg1

end
-- ==== Proof.Reg2.lean ====
/-
  Region 2, the second linear projection: the same 50-point grid over the rows of the hidden features (the first
  layer's rectified output) against the second 64 × 64 weight matrix. The body casts its row block to its own shape
  (the identity), changes both operands' float format (the identity on the extended reals) and multiplies into a zero
  accumulator, so entry (p, q) of what point t flushes is Σ_k h(2000·t + p, k) · w(k, q). The 50 blocks tile the rows:
  after the region the output array is the matrix product of the two arrays as the region found them.
-/
import proofs.«165799_j33517924778672_1_alg».proof.Proof.Gen.KernelIdeal.Frame
import proofs.«165799_j33517924778672_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Reg2

open Cert.KernelIdeal Cert.KernelIdeal.Gen Idealize.ShloMosaic Idealize.ShloMosaic.TcCoe Idealize.SL.Sem
open Idealize.ShloMosaic.Pipeline (Dat)
open Idealize.ShloMosaic.ValueIdx Cert.Spec

/-! ## The product of two blocks at an entry -/

theorem lhsAx0 (i : S2000x64.Idx) (q : dot_S2000x64_S64x64_S2000x64_1_0_0_1_n_n.contr.Idx) : (dot_S2000x64_S64x64_S2000x64_1_0_0_1_n_n.lhsIdx i q 0).val = (i 0).val := by
  unfold DotDims.lhsIdx
  rw [dif_neg (show ¬(0 : Fin S2000x64.rank) ∈ dot_S2000x64_S64x64_S2000x64_1_0_0_1_n_n.lhsBatch by decide), dif_pos (show (0 : Fin S2000x64.rank) ∈ dot_S2000x64_S64x64_S2000x64_1_0_0_1_n_n.lhsNonContracting by decide)]
  rfl
theorem lhsAx1 (i : S2000x64.Idx) (q : dot_S2000x64_S64x64_S2000x64_1_0_0_1_n_n.contr.Idx) : (dot_S2000x64_S64x64_S2000x64_1_0_0_1_n_n.lhsIdx i q 1).val = (q ⟨0, by decide⟩).val :=
  dot_S2000x64_S64x64_S2000x64_1_0_0_1_n_n.lhsIdx_val_of_single rfl i q
theorem rhsAx0 (i : S2000x64.Idx) (q : dot_S2000x64_S64x64_S2000x64_1_0_0_1_n_n.contr.Idx) : (dot_S2000x64_S64x64_S2000x64_1_0_0_1_n_n.rhsIdx i q 0).val = (q ⟨0, by decide⟩).val :=
  dot_S2000x64_S64x64_S2000x64_1_0_0_1_n_n.rhsIdx_val_of_single rfl i q
theorem rhsAx1 (i : S2000x64.Idx) (q : dot_S2000x64_S64x64_S2000x64_1_0_0_1_n_n.contr.Idx) : (dot_S2000x64_S64x64_S2000x64_1_0_0_1_n_n.rhsIdx i q 1).val = (i 1).val := by
  unfold DotDims.rhsIdx
  rw [dif_neg (show ¬(1 : Fin S64x64.rank) ∈ dot_S2000x64_S64x64_S2000x64_1_0_0_1_n_n.rhsBatch by decide), dif_pos (show (1 : Fin S64x64.rank) ∈ dot_S2000x64_S64x64_S2000x64_1_0_0_1_n_n.rhsNonContracting by decide)]
  rfl

/-- The stored value at entry (p, q): the cast of the row block to its own shape changes nothing, so it is the sum
    over k of the row block's (p, k) times the weight's (k, q). -/
theorem pay_ix2 (x0 : Vec Ideal S2000x64 .f32) (x1 : Vec Ideal S64x64 .f32) (p : Fin 2000) (q : Fin 64) :
    k2_pay1 (F := Ideal) x0 x1 (ix2 p q) = ∑ k : Fin 64, x0 (ix2 p k) * x1 (ix2 k q) := by
  unfold k2_pay1
  rw [shapeCast_self]
  refine (Ideal.matmul_constant_zero_apply dot_S2000x64_S64x64_S2000x64_1_0_0_1_n_n none _ _ (ix2 p q)).trans ?_
  rw [← Equiv.sum_comp (ValueIdx.contrEquiv1 dot_S2000x64_S64x64_S2000x64_1_0_0_1_n_n 64 rfl rfl).symm]
  refine Finset.sum_congr rfl fun k _ => ?_
  have hk := ValueIdx.contrEquiv1_symm_val dot_S2000x64_S64x64_S2000x64_1_0_0_1_n_n 64 rfl rfl k
  have el : dot_S2000x64_S64x64_S2000x64_1_0_0_1_n_n.lhsIdx (ix2 p q) ((ValueIdx.contrEquiv1 dot_S2000x64_S64x64_S2000x64_1_0_0_1_n_n 64 rfl rfl).symm k) = ix2 p k := funext fun a => Fin.ext (by
    match a with
    | ⟨0, _⟩ => exact lhsAx0 _ _
    | ⟨1, _⟩ => exact (lhsAx1 _ _).trans hk)
  have er : dot_S2000x64_S64x64_S2000x64_1_0_0_1_n_n.rhsIdx (ix2 p q) ((ValueIdx.contrEquiv1 dot_S2000x64_S64x64_S2000x64_1_0_0_1_n_n 64 rfl rfl).symm k) = ix2 k q := funext fun a => Fin.ext (by
    match a with
    | ⟨0, _⟩ => exact (rhsAx0 _ _).trans hk
    | ⟨1, _⟩ => exact rhsAx1 _ _)
  rw [el, er]
  rfl

/-! ## The blocks a point reads -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the hidden-feature window and the output window sit at block row t,
    column block 0; the weight window at block (0, 0). -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Row 2000·t + p of the array, for a point t of the 50 and a row p of its block. -/
abbrev rowAt (t : Fin cfg2.N) (p : Fin 2000) : Fin 100000 :=
  ⟨t.val * 2000 + p.val, by have ht : t.val < 50 := t.isLt; have hp := p.isLt; omega⟩

/-- The hidden-feature block at point t, entry (p, k), is the array's entry (2000·t + p, k). -/
theorem blk0_ix2 (c : Dev nD) (t : Fin cfg2.N) (p : Fin 2000) (k : Fin 64) :
    iblk2 V c 0 t (ix2 p k) = V c main_v43 (ix2 (rowAt t p) k) := by
  obtain ⟨e0, e1, -, -, -, -⟩ := idx_facts t
  show V c main_v43 (((cfg2.win 0).blk t).view.emb (ix2 p k)) = V c main_v43 (ix2 (rowAt t p) k)
  refine congrArg (V c main_v43) ?_
  funext a; apply Fin.ext
  match a with
  | ⟨0, _⟩ => show win2_0.index t (0 : Fin 2) * 2000 + 1 * p.val = t.val * 2000 + p.val; omega
  | ⟨1, _⟩ => show win2_0.index t (1 : Fin 2) * 64 + 1 * k.val = k.val; omega

/-- The weight block at every point is the whole weight array. -/
theorem blk1_ix2 (c : Dev nD) (t : Fin cfg2.N) (k : Fin 64) (q : Fin 64) :
    iblk2 V c 1 t (ix2 k q) = V c main_arg4 (ix2 k q) := by
  obtain ⟨-, -, e2, e3, -, -⟩ := idx_facts t
  show V c main_arg4 (((cfg2.win 1).blk t).view.emb (ix2 k q)) = V c main_arg4 (ix2 k q)
  refine congrArg (V c main_arg4) ?_
  funext a; apply Fin.ext
  match a with
  | ⟨0, _⟩ => show win2_1.index t (0 : Fin 2) * 64 + 1 * k.val = k.val; omega
  | ⟨1, _⟩ => show win2_1.index t (1 : Fin 2) * 64 + 1 * q.val = q.val; omega

/-! ## What a point flushes, the cover, and the array after the region -/

/-- Point t writes back block t of the matrix product of the two arrays as the region finds them. -/
theorem flushed_eq (c : Dev nD) (t : Fin cfg2.N) :
    (dat2 V c).flushed 2 t = ((cfg2.win 2).blk t).view.read (Elt Ideal) (MM (V c main_v43) (V c main_arg4)) := by
  show (cfg2.win 2).cut (grid2.coords t) ((dat2 V c).after 2 t) = _
  rw [after2_2]
  unfold out2_2
  rw [View.canon_unit_zero hz]
  simp only [View.ld_unit_zero (S := S2000x64) hz, View.ld_unit_zero (S := S64x64) hz]
  obtain ⟨-, -, -, -, e4, e5⟩ := idx_facts t
  funext j
  obtain ⟨p, q, rfl⟩ : ∃ (p : Fin 2000) (q : Fin 64), j = ix2 p q := ⟨j 0, j 1, eq_ix2 j⟩
  have hemb : ((cfg2.win 2).blk t).view.emb (ix2 p q) = ix2 (rowAt t p) q := by
    funext a; apply Fin.ext
    match a with
    | ⟨0, _⟩ => show win2_2.index t (0 : Fin 2) * 2000 + 1 * p.val = t.val * 2000 + p.val; omega
    | ⟨1, _⟩ => show win2_2.index t (1 : Fin 2) * 64 + 1 * q.val = q.val; omega
  show k2_pay1 (F := Ideal) (iblk2 V c 0 t) (iblk2 V c 1 t) (ix2 p q) = MM (V c main_v43) (V c main_arg4) (((cfg2.win 2).blk t).view.emb (ix2 p q))
  rw [hemb, MM_ix2]
  refine (pay_ix2 (iblk2 V c 0 t) (iblk2 V c 1 t) p q).trans ?_
  unfold mmAt
  exact Finset.sum_congr rfl fun k _ => by rw [blk0_ix2 V c t p k, blk1_ix2 V c t k q]

/-- An index of the output array is in point t's block iff each coordinate is in the block's range on its axis. -/
theorem mem_blk (t : Fin cfg2.N) (i : S100000x64.Idx) :
    i ∈ ((cfg2.win 2).blk t).view.set ↔ ∀ a : Fin 2, win2_2.index t a * S2000x64.size a ≤ (i a).val ∧ (i a).val < win2_2.index t a * S2000x64.size a + S2000x64.size a := by
  show i ∈ ((View.whole main_v48).slice (win2_2.rect t)).set ↔ _
  rw [View.set_slice_whole, Rect.mem_set_unit]
  exact Iff.rfl

/-- Every index of the output array lies in the block of the point its row falls in. -/
theorem cover (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  let t : Fin cfg2.N := ⟨(i 0).val / 2000, by show (i 0).val / 2000 < 50; omega⟩
  obtain ⟨-, -, -, -, e4, e5⟩ := idx_facts t
  have ht : t.val = (i 0).val / 2000 := rfl
  refine ⟨t, flush2_2 t, ?_⟩
  rw [mem_blk]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 64 ≤ (i 1).val ∧ (i 1).val < win2_2.index t (1 : Fin 2) * 64 + 64; omega

/-- After region 2 its output array holds the matrix product of the hidden features and the second weight array as
    the region found them. -/
theorem final (c : Dev nD) : (dat2 V c).arrAt 2 cfg2.N = MM (V c main_v43) (V c main_arg4) :=
  (dat2 V c).arrAt_eq_of_cover 2 (MM (V c main_v43) (V c main_arg4)) (fun t _ => flushed_eq V c t) cover

end Cert.KernelIdeal.Reg2

end
-- ==== Proof.Reg3.lean ====
/-
  Region 3, the second layer's combine (no rectifier follows it: the log-softmax does). On the 50-point grid point t
  holds rows [2000·t, 2000·t + 2000) of the second layer's aggregated neighbour sums s and of its projected hidden
  features g, the matching [2000, 1] column of the per-node inverse degree e, and the whole [1, 64] bias row β, and
  stores (s(p, q) + g(p, q) · e(p, 0)) + β(0, q) at (p, q): the column is broadcast along the features and the bias
  row along the rows, and the body's casts of each block to its own shape change nothing. Row blocks 0 … 49 exhaust the
  100000 rows, so once the region has run the output array is the combine of the four arrays it was entered with.
-/
import proofs.«165799_j33517924778672_1_alg».proof.Proof.Gen.KernelIdeal.Frame
import proofs.«165799_j33517924778672_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Reg3

open Cert.KernelIdeal Cert.KernelIdeal.Gen Idealize.ShloMosaic Idealize.ShloMosaic.TcCoe Idealize.SL.Sem
open Idealize.ShloMosaic.Pipeline (Dat)
open Idealize.ShloMosaic.ValueIdx Cert.Spec

/-! ## One stored entry -/

/-- The inverse-degree column, broadcast over the 64 features, at (p, q) is the column at (p, 0). -/
theorem colBroadcast (e : Vec Ideal S2000x1 .f32) (p : Fin 2000) (q : Fin 64) :
    broadcastTo S2000x64 e broadcasts_S2000x1_S2000x64 (ix2 p q) = e (ix2 p (0 : Fin 1)) :=
  broadcastTo_apply e broadcasts_S2000x1_S2000x64 (ix2 p q) (ix2 p (0 : Fin 1)) (fun a => by
    match a with
    | ⟨0, _⟩ => rfl
    | ⟨1, _⟩ => rfl)

/-- The bias row, broadcast over the 2000 rows, at (p, q) is the row at (0, q). -/
theorem rowBroadcast (β : Vec Ideal S1x64 .f32) (p : Fin 2000) (q : Fin 64) :
    broadcastTo S2000x64 β broadcasts_S1x64_S2000x64 (ix2 p q) = β (ix2 (0 : Fin 1) q) :=
  broadcastTo_apply β broadcasts_S1x64_S2000x64 (ix2 p q) (ix2 (0 : Fin 1) q) (fun a => by
    match a with
    | ⟨0, _⟩ => rfl
    | ⟨1, _⟩ => rfl)

/-- What the body stores at (p, q), from its four loaded blocks. -/
theorem stored_at (s g : Vec Ideal S2000x64 .f32) (e : Vec Ideal S2000x1 .f32) (β : Vec Ideal S1x64 .f32) (p : Fin 2000) (q : Fin 64) :
    k3_pay1 (F := Ideal) s g e β (ix2 p q) = (s (ix2 p q) + g (ix2 p q) * e (ix2 p (0 : Fin 1))) + β (ix2 (0 : Fin 1) q) := by
  unfold k3_pay1
  simp only [shapeCast_self]
  show (s (ix2 p q) + g (ix2 p q) * broadcastTo S2000x64 e broadcasts_S2000x1_S2000x64 (ix2 p q)) + broadcastTo S2000x64 β broadcasts_S1x64_S2000x64 (ix2 p q) = _
  rw [colBroadcast, rowBroadcast]

/-! ## Where each window's block sits in its array -/

variable (V : (c : Dev nD) → (b : Ref sig .tc) → Buf (Elt Ideal) ((c : Thread nD τ).loc b))

theorem zeroOffset : (![0, 0] : Fin 2 → Nat) = fun _ => 0 := funext fun a => by fin_cases a <;> rfl

/-- Decided over the 50 points: windows 0, 1, 2 and the output window 4 are at block row t and block column 0; the
    bias window 3 stays at block (0, 0). -/
theorem blockIndex : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- The array row that row p of point t's block is. -/
abbrev arrRow (t : Fin cfg3.N) (p : Fin 2000) : Fin 100000 :=
  ⟨t.val * 2000 + p.val, by have ht : t.val < 50 := t.isLt; have hp := p.isLt; omega⟩

theorem sums_block (c : Dev nD) (t : Fin cfg3.N) (p : Fin 2000) (q : Fin 64) :
    iblk3 V c 0 t (ix2 p q) = V c main_v83 (ix2 (arrRow t p) q) := by
  obtain ⟨h0, h1, -⟩ := blockIndex t
  show V c main_v83 (((cfg3.win 0).blk t).view.emb (ix2 p q)) = V c main_v83 (ix2 (arrRow t p) q)
  refine congrArg (V c main_v83) ?_
  funext a; apply Fin.ext
  match a with
  | ⟨0, _⟩ => show win3_0.index t (0 : Fin 2) * 2000 + 1 * p.val = t.val * 2000 + p.val; omega
  | ⟨1, _⟩ => show win3_0.index t (1 : Fin 2) * 64 + 1 * q.val = q.val; omega

theorem feats_block (c : Dev nD) (t : Fin cfg3.N) (p : Fin 2000) (q : Fin 64) :
    iblk3 V c 1 t (ix2 p q) = V c main_v48 (ix2 (arrRow t p) q) := by
  obtain ⟨-, -, h2, h3, -⟩ := blockIndex t
  show V c main_v48 (((cfg3.win 1).blk t).view.emb (ix2 p q)) = V c main_v48 (ix2 (arrRow t p) q)
  refine congrArg (V c main_v48) ?_
  funext a; apply Fin.ext
  match a with
  | ⟨0, _⟩ => show win3_1.index t (0 : Fin 2) * 2000 + 1 * p.val = t.val * 2000 + p.val; omega
  | ⟨1, _⟩ => show win3_1.index t (1 : Fin 2) * 64 + 1 * q.val = q.val; omega

theorem invdeg_block (c : Dev nD) (t : Fin cfg3.N) (p : Fin 2000) :
    iblk3 V c 2 t (ix2 p (0 : Fin 1)) = V c main_v85 (ix2 (arrRow t p) (0 : Fin 1)) := by
  obtain ⟨-, -, -, -, h4, h5, -⟩ := blockIndex t
  show V c main_v85 (((cfg3.win 2).blk t).view.emb (ix2 p (0 : Fin 1))) = V c main_v85 (ix2 (arrRow t p) (0 : Fin 1))
  refine congrArg (V c main_v85) ?_
  funext a; apply Fin.ext
  match a with
  | ⟨0, _⟩ => show win3_2.index t (0 : Fin 2) * 2000 + 1 * p.val = t.val * 2000 + p.val; omega
  | ⟨1, _⟩ => show win3_2.index t (1 : Fin 2) * 1 + 1 * 0 = 0; omega

theorem bias_block (c : Dev nD) (t : Fin cfg3.N) (q : Fin 64) :
    iblk3 V c 3 t (ix2 (0 : Fin 1) q) = V c main_v86 (ix2 (0 : Fin 1) q) := by
  obtain ⟨-, -, -, -, -, -, h6, h7, -⟩ := blockIndex t
  show V c main_v86 (((cfg3.win 3).blk t).view.emb (ix2 (0 : Fin 1) q)) = V c main_v86 (ix2 (0 : Fin 1) q)
  refine congrArg (V c main_v86) ?_
  funext a; apply Fin.ext
  match a with
  | ⟨0, _⟩ => show win3_3.index t (0 : Fin 2) * 1 + 1 * 0 = 0; omega
  | ⟨1, _⟩ => show win3_3.index t (1 : Fin 2) * 64 + 1 * q.val = q.val; omega

/-! ## The write-back of a point, the tiling, the array after the region -/

theorem writeback (c : Dev nD) (t : Fin cfg3.N) :
    (dat3 V c).flushed 4 t = ((cfg3.win 4).blk t).view.read (Elt Ideal) (Comb (V c main_v83) (V c main_v48) (V c main_v85) (V c main_v86)) := by
  show (cfg3.win 4).cut (grid3.coords t) ((dat3 V c).after 4 t) = _
  rw [after3_4]
  unfold out3_4
  rw [View.canon_unit_zero zeroOffset]
  simp only [View.ld_unit_zero (S := S2000x64) zeroOffset, View.ld_unit_zero (S := S2000x1) zeroOffset, View.ld_unit_zero (S := S1x64) zeroOffset]
  obtain ⟨-, -, -, -, -, -, -, -, h8, h9⟩ := blockIndex t
  funext j
  obtain ⟨p, q, rfl⟩ : ∃ (p : Fin 2000) (q : Fin 64), j = ix2 p q := ⟨j 0, j 1, eq_ix2 j⟩
  have hplace : ((cfg3.win 4).blk t).view.emb (ix2 p q) = ix2 (arrRow t p) q := by
    funext a; apply Fin.ext
    match a with
    | ⟨0, _⟩ => show win3_4.index t (0 : Fin 2) * 2000 + 1 * p.val = t.val * 2000 + p.val; omega
    | ⟨1, _⟩ => show win3_4.index t (1 : Fin 2) * 64 + 1 * q.val = q.val; omega
  show k3_pay1 (F := Ideal) (iblk3 V c 0 t) (iblk3 V c 1 t) (iblk3 V c 2 t) (iblk3 V c 3 t) (ix2 p q)
    = Comb (V c main_v83) (V c main_v48) (V c main_v85) (V c main_v86) (((cfg3.win 4).blk t).view.emb (ix2 p q))
  rw [hplace]
  refine (stored_at (iblk3 V c 0 t) (iblk3 V c 1 t) (iblk3 V c 2 t) (iblk3 V c 3 t) p q).trans ?_
  rw [sums_block V c t p q, feats_block V c t p q, invdeg_block V c t p, bias_block V c t q]
  rfl

theorem in_block (t : Fin cfg3.N) (i : S100000x64.Idx) :
    i ∈ ((cfg3.win 4).blk t).view.set ↔ ∀ a : Fin 2, win3_4.index t a * S2000x64.size a ≤ (i a).val ∧ (i a).val < win3_4.index t a * S2000x64.size a + S2000x64.size a := by
  show i ∈ ((View.whole main_v87).slice (win3_4.rect t)).set ↔ _
  rw [View.set_slice_whole, Rect.mem_set_unit]
  exact Iff.rfl

/-- The point whose block holds an index is the quotient of its row by 2000. -/
theorem tiled (i : S100000x64.Idx) : ∃ t : Fin cfg3.N, (cfg3.win 4).flush t = true ∧ i ∈ ((cfg3.win 4).blk t).view.set := by
  have hr : (i 0).val < 100000 := (i 0).isLt
  have hc : (i 1).val < 64 := (i 1).isLt
  let t : Fin cfg3.N := ⟨(i 0).val / 2000, by show (i 0).val / 2000 < 50; omega⟩
  obtain ⟨-, -, -, -, -, -, -, -, h8, h9⟩ := blockIndex t
  have ht : t.val = (i 0).val / 2000 := rfl
  refine ⟨t, flush3_4 t, ?_⟩
  rw [in_block]
  intro a
  match a with
  | ⟨0, _⟩ => show win3_4.index t (0 : Fin 2) * 2000 ≤ (i 0).val ∧ (i 0).val < win3_4.index t (0 : Fin 2) * 2000 + 2000; omega
  | ⟨1, _⟩ => show win3_4.index t (1 : Fin 2) * 64 ≤ (i 1).val ∧ (i 1).val < win3_4.index t (1 : Fin 2) * 64 + 64; omega

/-- After region 3 its output array is the combine of the aggregated sums, the projected hidden features, the
    inverse-degree column and the bias row as the region found them. -/
theorem final (c : Dev nD) : (dat3 V c).arrAt 4 cfg3.N = Comb (V c main_v83) (V c main_v48) (V c main_v85) (V c main_v86) :=
  (dat3 V c).arrAt_eq_of_cover 4 _ (fun t _ => writeback V c t) tiled

end Cert.KernelIdeal.Reg3

end
-- ==== Proof.Reg4.lean ====
/-
  Region 4, the row-wise log-softmax: a grid of 50 points, point t staging rows [2000·t, 2000·t + 2000) of the
  second layer's output and storing, for each row of the block, the entries less the row's maximum, less the
  logarithm of the sum over the row of the exponentials of those differences. The row's maximum is the fold of
  max over the 64 lanes from the word −∞, the sum the sum over the 64 lanes; both are kept as a [2000, 1] column
  and read back along each row. So entry (p, q) of what point t flushes is the log-softmax of row 2000·t + p of the
  array at column q. The 50 blocks tile the 100000 rows, so after the region the output array IS the row-wise
  log-softmax of the input array as the region finds it.
-/
import proofs.«165799_j33517924778672_1_alg».proof.Proof.Gen.KernelIdeal.Frame
import proofs.«165799_j33517924778672_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg4

open Cert.KernelIdeal Cert.KernelIdeal.Gen Idealize.ShloMosaic Idealize.ShloMosaic.TcCoe Idealize.SL.Sem
open Idealize.ShloMosaic.Pipeline (Dat)
open Idealize.ShloMosaic.ValueIdx Cert.Spec

/-! ## The lane reductions and the column forms at an entry -/

/-- A row index with lane k inserted on axis 1 is the entry (p, k). -/
theorem lift_ix1 (h : S2000x64.Reduces [1] S2000) (p : Fin 2000) (k : Fin 64) : h.lift (ix1 p) k = ix2 p k := by
  funext a; apply Fin.ext
  match a with
  | ⟨0, _⟩ => rfl
  | ⟨1, _⟩ => rfl

/-- The lane maximum at row p: the fold of max over the row's 64 entries from the accumulator's word. -/
theorem rowmax_ix1 (x : FVec Ideal S2000x64 .f32) (acc : BitVec 32) (h : S2000x64.Reduces [1] S2000) (hφ : FKind.Formats .f32)
    (hacc : acc = FKind.maximumf.neutral .f32 hφ) (p : Fin 2000) :
    multiReduction .maximumf [1] S2000 x acc h hφ hacc (ix1 p)
      = (Finset.univ : Finset (Fin 64)).fold max (Ideal.ofBits .f32 acc) (fun k => x (ix2 p k)) := by
  refine (Ideal.multiReduction_maximumf_single x acc h hφ hacc (ix1 p)).trans ?_
  have hf : (x ∘ h.lift (ix1 p)) = fun k : Fin 64 => x (ix2 p k) := funext fun k => congrArg x (lift_ix1 h p k)
  rw [hf]
  rfl

/-- The lane sum at row p: the sum of the row's 64 entries. -/
theorem rowsum_ix1 (x : FVec Ideal S2000x64 .f32) (acc : BitVec 32) (h : S2000x64.Reduces [1] S2000) (hφ : FKind.Formats .f32)
    (hacc : acc = FKind.add.neutral .f32 hφ) (p : Fin 2000) :
    multiReduction .add [1] S2000 x acc h hφ hacc (ix1 p) = ∑ k : Fin 64, x (ix2 p k) := by
  refine (Ideal.multiReduction_add_single x acc h hφ hacc (ix1 p)).trans ?_
  exact Finset.sum_congr rfl fun k _ => congrArg x (lift_ix1 h p k)

/-- A [2000] vector kept as a [2000, 1] column reads, at (p, u), the vector at p. -/
theorem col_ix2 {α : Type} (v : S2000.Idx → α) (h : S2000.ShapeCasts S2000x1) (p : Fin 2000) (u : Fin 1) :
    shapeCast S2000x1 v h (ix2 p u) = v (ix1 p) :=
  shapeCast_apply v h _ _ (by
    have hu : u.val = 0 := by omega
    rw [Shape.rowMajor_val_one, Shape.rowMajor_val_two]
    show p.val = p.val * 1 + u.val
    rw [hu, Nat.mul_one, Nat.add_zero])

/-- A [2000, 1] column broadcast along the lanes reads, at (p, q), the column at (p, 0). -/
theorem bcast_ix2 {α : Type} (v : S2000x1.Idx → α) (h : S2000x1.Broadcasts S2000x64) (p : Fin 2000) (q : Fin 64) :
    broadcastTo S2000x64 v h (ix2 p q) = v (ix2 p (0 : Fin 1)) := by
  refine broadcastTo_apply v h (ix2 p q) (ix2 p (0 : Fin 1)) fun ax => ?_
  match ax with
  | ⟨0, _⟩ => rfl
  | ⟨1, _⟩ => rfl

/-- The exponential of an array at an index is the exponential of the entry. -/
theorem exp_at {s : Shape} {φ : FTy} (a : FVec Ideal s φ) (i : s.Idx) : exp a i = Ideal.exp (a i) := rfl
/-- The logarithm of an array at an index is the logarithm of the entry. -/
theorem log_at {s : Shape} {φ : FTy} (a : FVec Ideal s φ) (i : s.Idx) : log a i = Ideal.log (a i) := rfl

/-- The stored value at entry (p, q): the block's (p, q) less the row's maximum, less the logarithm of the sum over
    the row of the exponentials of the entries less that maximum. -/
theorem pay_core (x0 : FVec Ideal S2000x64 .f32) (am aa : BitVec 32) (h : S2000x64.Reduces [1] S2000) (hφ : FKind.Formats .f32)
    (hm : am = FKind.maximumf.neutral .f32 hφ) (ha : aa = FKind.add.neutral .f32 hφ)
    (hc : S2000.ShapeCasts S2000x1) (hb : S2000x1.Broadcasts S2000x64) (p : Fin 2000) (q : Fin 64) :
    subf (subf x0 (broadcastTo S2000x64 (shapeCast S2000x1 (multiReduction .maximumf [1] S2000 x0 am h hφ hm) hc) hb))
        (broadcastTo S2000x64 (log (shapeCast S2000x1 (multiReduction .add [1] S2000
          (exp (subf x0 (broadcastTo S2000x64 (shapeCast S2000x1 (multiReduction .maximumf [1] S2000 x0 am h hφ hm) hc) hb)))
          aa h hφ ha) hc)) hb) (ix2 p q)
      = (x0 (ix2 p q) - (Finset.univ : Finset (Fin 64)).fold max (Ideal.ofBits .f32 am) (fun k => x0 (ix2 p k)))
        - Ideal.log (∑ k : Fin 64, Ideal.exp (x0 (ix2 p k)
            - (Finset.univ : Finset (Fin 64)).fold max (Ideal.ofBits .f32 am) (fun k => x0 (ix2 p k)))) := by
  rw [subf_apply, subf_apply, bcast_ix2, bcast_ix2, log_at, col_ix2, col_ix2, rowmax_ix1, rowsum_ix1]
  refine congrArg (fun z => _ - Ideal.log z) (Finset.sum_congr rfl fun k _ => ?_)
  rw [exp_at, subf_apply, bcast_ix2, col_ix2, rowmax_ix1]

/-- The kernel's stored value is that term at the words −∞ and 0, its first cast the identity. -/
theorem pay_ix2 (x0 : Vec Ideal S2000x64 .f32) (p : Fin 2000) (q : Fin 64) :
    k4_pay1 (F := Ideal) x0 (ix2 p q)
      = (x0 (ix2 p q) - (Finset.univ : Finset (Fin 64)).fold max (Ideal.ofBits .f32 0xFF800000#32) (fun k => x0 (ix2 p k)))
        - Ideal.log (∑ k : Fin 64, Ideal.exp (x0 (ix2 p k)
            - (Finset.univ : Finset (Fin 64)).fold max (Ideal.ofBits .f32 0xFF800000#32) (fun k => x0 (ix2 p k)))) := by
  unfold k4_pay1
  rw [shapeCast_self]
  exact pay_core x0 0xFF800000#32 0x00000000#32 reduces_S2000x64_S2000 (.inl rfl) rfl rfl shapeCasts_S2000_S2000x1 broadcasts_S2000x1_S2000x64 p q

/-- A block row that reads, lane by lane, row r of an array has the log-softmax term of that array's row r. -/
theorem ls_of_row (x : FVec Ideal S2000x64 .f32) (v : Arr 100000 64) (r : Fin 100000) (p : Fin 2000) (q : Fin 64)
    (hx : ∀ k : Fin 64, x (ix2 p k) = v (ix2 r k)) :
    (x (ix2 p q) - (Finset.univ : Finset (Fin 64)).fold max (Ideal.ofBits .f32 0xFF800000#32) (fun k => x (ix2 p k)))
        - Ideal.log (∑ k : Fin 64, Ideal.exp (x (ix2 p k)
            - (Finset.univ : Finset (Fin 64)).fold max (Ideal.ofBits .f32 0xFF800000#32) (fun k => x (ix2 p k))))
      = lsAt v r q := by
  have hrow : (fun k : Fin 64 => x (ix2 p k)) = fun k : Fin 64 => v (ix2 r k) := funext hx
  unfold lsAt rowSumExp rowMax
  rw [hrow, hx q]
  refine congrArg (fun z => _ - Ideal.log z) (Finset.sum_congr rfl fun k _ => ?_)
  rw [hx k]

/-! ## The block a point reads -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the input window and the output window both sit at block row t, column
    block 0. -/
theorem idx_facts : ∀ t : Fin cfg4.N, win4_0.index t (0 : Fin 2) = t.val ∧ win4_0.index t (1 : Fin 2) = 0
    ∧ win4_1.index t (0 : Fin 2) = t.val ∧ win4_1.index t (1 : Fin 2) = 0 :=
  (by decide +kernel : ∀ t : Fin grid4.N, _)

/-- Row 2000·t + p of the array, for a point t of the 50 and a row p of its block. -/
abbrev rowAt (t : Fin cfg4.N) (p : Fin 2000) : Fin 100000 :=
  ⟨t.val * 2000 + p.val, by have ht : t.val < 50 := t.isLt; have hp := p.isLt; omega⟩

/-- The input block at point t, entry (p, k), is the array's entry (2000·t + p, k). -/
theorem blk0_ix2 (c : Dev nD) (t : Fin cfg4.N) (p : Fin 2000) (k : Fin 64) :
    iblk4 V c 0 t (ix2 p k) = V c main_v87 (ix2 (rowAt t p) k) := by
  obtain ⟨e0, e1, -, -⟩ := idx_facts t
  show V c main_v87 (((cfg4.win 0).blk t).view.emb (ix2 p k)) = V c main_v87 (ix2 (rowAt t p) k)
  refine congrArg (V c main_v87) ?_
  funext a; apply Fin.ext
  match a with
  | ⟨0, _⟩ => show win4_0.index t (0 : Fin 2) * 2000 + 1 * p.val = t.val * 2000 + p.val; omega
  | ⟨1, _⟩ => show win4_0.index t (1 : Fin 2) * 64 + 1 * k.val = k.val; omega

/-! ## What a point flushes, the cover, and the array after the region -/

/-- Point t writes back block t of the row-wise log-softmax of the input array as the region finds it. -/
theorem flushed_eq (c : Dev nD) (t : Fin cfg4.N) :
    (dat4 V c).flushed 1 t = ((cfg4.win 1).blk t).view.read (Elt Ideal) (LS (V c main_v87)) := by
  show (cfg4.win 1).cut (grid4.coords t) ((dat4 V c).after 1 t) = _
  rw [after4_1]
  unfold out4_1
  rw [View.canon_unit_zero hz]
  simp only [View.ld_unit_zero (S := S2000x64) hz]
  obtain ⟨-, -, e2, e3⟩ := idx_facts t
  funext j
  obtain ⟨p, q, rfl⟩ : ∃ (p : Fin 2000) (q : Fin 64), j = ix2 p q := ⟨j 0, j 1, eq_ix2 j⟩
  have hemb : ((cfg4.win 1).blk t).view.emb (ix2 p q) = ix2 (rowAt t p) q := by
    funext a; apply Fin.ext
    match a with
    | ⟨0, _⟩ => show win4_1.index t (0 : Fin 2) * 2000 + 1 * p.val = t.val * 2000 + p.val; omega
    | ⟨1, _⟩ => show win4_1.index t (1 : Fin 2) * 64 + 1 * q.val = q.val; omega
  show k4_pay1 (F := Ideal) (iblk4 V c 0 t) (ix2 p q) = LS (V c main_v87) (((cfg4.win 1).blk t).view.emb (ix2 p q))
  rw [hemb, LS_ix2]
  refine (pay_ix2 (iblk4 V c 0 t) p q).trans ?_
  exact ls_of_row (iblk4 V c 0 t) (V c main_v87) (rowAt t p) p q fun k => blk0_ix2 V c t p k

/-- An index of the output array is in point t's block iff each coordinate is in the block's range on its axis. -/
theorem mem_blk (t : Fin cfg4.N) (i : S100000x64.Idx) :
    i ∈ ((cfg4.win 1).blk t).view.set ↔ ∀ a : Fin 2, win4_1.index t a * S2000x64.size a ≤ (i a).val ∧ (i a).val < win4_1.index t a * S2000x64.size a + S2000x64.size a := by
  show i ∈ ((View.whole main_v88).slice (win4_1.rect t)).set ↔ _
  rw [View.set_slice_whole, Rect.mem_set_unit]
  exact Iff.rfl

/-- Every index of the output array lies in the block of the point its row falls in. -/
theorem cover (i : S100000x64.Idx) : ∃ t : Fin cfg4.N, (cfg4.win 1).flush t = true ∧ i ∈ ((cfg4.win 1).blk t).view.set := by
  have hi0 : (i 0).val < 100000 := (i 0).isLt
  have hi1 : (i 1).val < 64 := (i 1).isLt
  let t : Fin cfg4.N := ⟨(i 0).val / 2000, by show (i 0).val / 2000 < 50; omega⟩
  obtain ⟨-, -, e2, e3⟩ := idx_facts t
  have ht : t.val = (i 0).val / 2000 := rfl
  refine ⟨t, flush4_1 t, ?_⟩
  rw [mem_blk]
  intro a
  match a with
  | ⟨0, _⟩ => show win4_1.index t (0 : Fin 2) * 2000 ≤ (i 0).val ∧ (i 0).val < win4_1.index t (0 : Fin 2) * 2000 + 2000; omega
  | ⟨1, _⟩ => show win4_1.index t (1 : Fin 2) * 64 ≤ (i 1).val ∧ (i 1).val < win4_1.index t (1 : Fin 2) * 64 + 64; omega

/-- After region 4 its output array holds the row-wise log-softmax of the input array as the region found it. -/
theorem final (c : Dev nD) : (dat4 V c).arrAt 1 cfg4.N = LS (V c main_v87) :=
  (dat4 V c).arrAt_eq_of_cover 1 (LS (V c main_v87)) (fun t _ => flushed_eq V c t) cover

end Cert.KernelIdeal.Reg4

end
-- ==== Proof.KChain.lean ====
/-
  The idealized kernel program's buffers at each boundary between its host stretches and its five regions, followed
  from the launch to the return, each live buffer identified with a stage of the REFERENCE's stage-by-stage reading
  of the six launch arrays x, e (the edge list), W₁, b₁, W₂, b₂:
    after the first stretch    the source and destination rows of e;
    after region 0             x · W₁                                          (the reference's first dot_general);
    after the second stretch   the aggregated neighbour sums of x · W₁, the squared inverse root degree as a
                               column (a reshape where the reference broadcasts: the same array) and b₁ as a row;
    after region 1             the rectified first layer h;
    after the third stretch    the edge rows again;   after region 2   h · W₂;
    after the fourth stretch   the second layer's sums, column and bias row;   after region 3   the second layer;
    after region 4             its row-wise log-softmax.
  The gather / scatter-add / rsqrt glue is the same operations in both programs, so each stretch's output IS the
  reference's stage of the same inputs, term for term; only the five regions need their own value (the region modules).
-/
import proofs.«165799_j33517924778672_1_alg».proof.Proof.Gen.KernelIdeal.Frame
import proofs.«165799_j33517924778672_1_alg».proof.Proof.RefLin
import proofs.«165799_j33517924778672_1_alg».proof.Proof.Layout
import proofs.«165799_j33517924778672_1_alg».proof.Proof.Reg0
import proofs.«165799_j33517924778672_1_alg».proof.Proof.Reg1
import proofs.«165799_j33517924778672_1_alg».proof.Proof.Reg2
import proofs.«165799_j33517924778672_1_alg».proof.Proof.Reg3
import proofs.«165799_j33517924778672_1_alg».proof.Proof.Reg4
import Idealize.ShloMosaic.Lib.StableHlo.Run

set_option maxRecDepth 16384

noncomputable section

namespace Cert.KernelIdeal.KChain

open Cert.KernelIdeal Cert.KernelIdeal.Gen Idealize.ShloMosaic Idealize.ShloMosaic.TcCoe Idealize.SL.Sem Idealize.ShloMosaic.StableHlo
open Cert.Spec
open Cert.ReferenceIdeal.ReadP

variable (m : (ℓ : Loc nD τ sig) → Buf (Elt Ideal) ℓ) (ρ : Dev nD → PrngReg) (c : Dev nD)

/-! ## After the first host stretch (region 0's entry) -/

set_option maxHeartbeats 2000000 in
theorem W1_src : W1 m ρ c (Proc.devRef .tc main_v1) = val_main_v1 (F := Ideal) (m ((c : Thread nD τ).loc main_arg1)) := by
  show StableHlo.after hostOps0 (W0 m ρ c) (Proc.devRef .tc main_v1) = _
  after_results_simp
  rfl
set_option maxHeartbeats 2000000 in
theorem W1_dst : W1 m ρ c (Proc.devRef .tc main_v3) = val_main_v3 (F := Ideal) (m ((c : Thread nD τ).loc main_arg1)) := by
  show StableHlo.after hostOps0 (W0 m ρ c) (Proc.devRef .tc main_v3) = _
  after_results_simp
  rfl
set_option maxHeartbeats 2000000 in
theorem W1_arg0 : W1 m ρ c (Proc.devRef .tc main_arg0) = (m ((c : Thread nD τ).loc main_arg0)) := by
  show StableHlo.after hostOps0 (W0 m ρ c) (Proc.devRef .tc main_arg0) = _
  after_results_simp <;> rfl
set_option maxHeartbeats 2000000 in
theorem W1_arg1 : W1 m ρ c (Proc.devRef .tc main_arg1) = (m ((c : Thread nD τ).loc main_arg1)) := by
  show StableHlo.after hostOps0 (W0 m ρ c) (Proc.devRef .tc main_arg1) = _
  after_results_simp <;> rfl
set_option maxHeartbeats 2000000 in
theorem W1_arg2 : W1 m ρ c (Proc.devRef .tc main_arg2) = (m ((c : Thread nD τ).loc main_arg2)) := by
  show StableHlo.after hostOps0 (W0 m ρ c) (Proc.devRef .tc main_arg2) = _
  after_results_simp <;> rfl
set_option maxHeartbeats 2000000 in
theorem W1_arg3 : W1 m ρ c (Proc.devRef .tc main_arg3) = (m ((c : Thread nD τ).loc main_arg3)) := by
  show StableHlo.after hostOps0 (W0 m ρ c) (Proc.devRef .tc main_arg3) = _
  after_results_simp <;> rfl
set_option maxHeartbeats 2000000 in
theorem W1_arg4 : W1 m ρ c (Proc.devRef .tc main_arg4) = (m ((c : Thread nD τ).loc main_arg4)) := by
  show StableHlo.after hostOps0 (W0 m ρ c) (Proc.devRef .tc main_arg4) = _
  after_results_simp <;> rfl
set_option maxHeartbeats 2000000 in
theorem W1_arg5 : W1 m ρ c (Proc.devRef .tc main_arg5) = (m ((c : Thread nD τ).loc main_arg5)) := by
  show StableHlo.after hostOps0 (W0 m ρ c) (Proc.devRef .tc main_arg5) = _
  after_results_simp <;> rfl

/-! ## After region 0 -/

theorem W2_xw : W2 m ρ c (Proc.devRef .tc main_v4) = val_main_v4 (F := Ideal) (m ((c : Thread nD τ).loc main_arg0)) (m ((c : Thread nD τ).loc main_arg2)) :=
  (W2_arr m ρ c 2).trans ((Reg0.final (V1 m ρ) c).trans
    ((congrArg₂ MM (W1_arg0 m ρ c) (W1_arg2 m ρ c)).trans (Cert.ReferenceIdeal.RefLin.v4_eq _ _).symm))
theorem W2_src : W2 m ρ c (Proc.devRef .tc main_v1) = val_main_v1 (F := Ideal) (m ((c : Thread nD τ).loc main_arg1)) := (W2_of_ne m ρ c main_v1 (by decide)).trans (W1_src m ρ c)
theorem W2_dst : W2 m ρ c (Proc.devRef .tc main_v3) = val_main_v3 (F := Ideal) (m ((c : Thread nD τ).loc main_arg1)) := (W2_of_ne m ρ c main_v3 (by decide)).trans (W1_dst m ρ c)
theorem W2_arg1 : W2 m ρ c (Proc.devRef .tc main_arg1) = (m ((c : Thread nD τ).loc main_arg1)) := (W2_of_ne m ρ c main_arg1 (by decide)).trans (W1_arg1 m ρ c)
theorem W2_arg3 : W2 m ρ c (Proc.devRef .tc main_arg3) = (m ((c : Thread nD τ).loc main_arg3)) := (W2_of_ne m ρ c main_arg3 (by decide)).trans (W1_arg3 m ρ c)
theorem W2_arg4 : W2 m ρ c (Proc.devRef .tc main_arg4) = (m ((c : Thread nD τ).loc main_arg4)) := (W2_of_ne m ρ c main_arg4 (by decide)).trans (W1_arg4 m ρ c)
theorem W2_arg5 : W2 m ρ c (Proc.devRef .tc main_arg5) = (m ((c : Thread nD τ).loc main_arg5)) := (W2_of_ne m ρ c main_arg5 (by decide)).trans (W1_arg5 m ρ c)

/-! ## After the second host stretch (region 1's entry) -/

set_option maxHeartbeats 8000000 in
/-- The aggregated neighbour sums are the reference's, of the same projected features and edge rows. -/
theorem W3_agg : W3 m ρ c (Proc.devRef .tc main_v39) = val_main_v39 (F := Ideal) (m ((c : Thread nD τ).loc main_arg0)) (m ((c : Thread nD τ).loc main_arg1)) (m ((c : Thread nD τ).loc main_arg2)) := by
  show StableHlo.after hostOps1 (W2 m ρ c) (Proc.devRef .tc main_v39) = _
  after_results_simp
  rw [W2_xw m ρ c, W2_src m ρ c, W2_dst m ρ c]
  rfl
set_option maxHeartbeats 8000000 in
/-- The squared inverse root degree as a column: the kernel's reshape is the reference's broadcast. -/
theorem W3_col : W3 m ρ c (Proc.devRef .tc main_v41) = val_main_v41 (F := Ideal) (m ((c : Thread nD τ).loc main_arg1)) := by
  show StableHlo.after hostOps1 (W2 m ρ c) (Proc.devRef .tc main_v41) = _
  after_results_simp
  rw [W2_dst m ρ c]
  exact Cert.Layout.column_eq (val_main_v40 (F := Ideal) (m ((c : Thread nD τ).loc main_arg1))) _ _
set_option maxHeartbeats 8000000 in
/-- The bias as a row: the kernel's reshape is the reference's broadcast. -/
theorem W3_row : W3 m ρ c (Proc.devRef .tc main_v42) = val_main_v45 (F := Ideal) (m ((c : Thread nD τ).loc main_arg3)) := by
  show StableHlo.after hostOps1 (W2 m ρ c) (Proc.devRef .tc main_v42) = _
  after_results_simp
  rw [W2_arg3 m ρ c]
  exact Cert.Layout.row_eq (m ((c : Thread nD τ).loc main_arg3)) _ _
set_option maxHeartbeats 8000000 in
theorem W3_xw : W3 m ρ c (Proc.devRef .tc main_v4) = val_main_v4 (F := Ideal) (m ((c : Thread nD τ).loc main_arg0)) (m ((c : Thread nD τ).loc main_arg2)) := by
  show StableHlo.after hostOps1 (W2 m ρ c) (Proc.devRef .tc main_v4) = _
  after_results_simp
  exact W2_xw m ρ c
set_option maxHeartbeats 8000000 in
theorem W3_arg1 : W3 m ρ c (Proc.devRef .tc main_arg1) = (m ((c : Thread nD τ).loc main_arg1)) := by
  show StableHlo.after hostOps1 (W2 m ρ c) (Proc.devRef .tc main_arg1) = _
  after_results_simp
  exact W2_arg1 m ρ c
set_option maxHeartbeats 8000000 in
theorem W3_arg4 : W3 m ρ c (Proc.devRef .tc main_arg4) = (m ((c : Thread nD τ).loc main_arg4)) := by
  show StableHlo.after hostOps1 (W2 m ρ c) (Proc.devRef .tc main_arg4) = _
  after_results_simp
  exact W2_arg4 m ρ c
set_option maxHeartbeats 8000000 in
theorem W3_arg5 : W3 m ρ c (Proc.devRef .tc main_arg5) = (m ((c : Thread nD τ).loc main_arg5)) := by
  show StableHlo.after hostOps1 (W2 m ρ c) (Proc.devRef .tc main_arg5) = _
  after_results_simp
  exact W2_arg5 m ρ c

/-! ## After region 1: the rectified first layer -/

theorem W4_h : W4 m ρ c (Proc.devRef .tc main_v43) = val_main_v48 (F := Ideal) (m ((c : Thread nD τ).loc main_arg0)) (m ((c : Thread nD τ).loc main_arg1)) (m ((c : Thread nD τ).loc main_arg2)) (m ((c : Thread nD τ).loc main_arg3)) := by
  refine (W4_arr m ρ c 4).trans ((Reg1.final (V3 m ρ) c).trans ?_)
  show Relu (Comb (W3 m ρ c (Proc.devRef .tc main_v39)) (W3 m ρ c (Proc.devRef .tc main_v4)) (W3 m ρ c (Proc.devRef .tc main_v41)) (W3 m ρ c (Proc.devRef .tc main_v42))) = _
  rw [W3_agg m ρ c, W3_xw m ρ c, W3_col m ρ c, W3_row m ρ c, Cert.ReferenceIdeal.RefLin.v48_eq, Cert.ReferenceIdeal.RefLin.v47_eq]
theorem W4_arg1 : W4 m ρ c (Proc.devRef .tc main_arg1) = (m ((c : Thread nD τ).loc main_arg1)) := (W4_of_ne m ρ c main_arg1 (by decide)).trans (W3_arg1 m ρ c)
theorem W4_arg4 : W4 m ρ c (Proc.devRef .tc main_arg4) = (m ((c : Thread nD τ).loc main_arg4)) := (W4_of_ne m ρ c main_arg4 (by decide)).trans (W3_arg4 m ρ c)
theorem W4_arg5 : W4 m ρ c (Proc.devRef .tc main_arg5) = (m ((c : Thread nD τ).loc main_arg5)) := (W4_of_ne m ρ c main_arg5 (by decide)).trans (W3_arg5 m ρ c)

/-! ## After the third host stretch (region 2's entry) -/

set_option maxHeartbeats 2000000 in
theorem W5_src : W5 m ρ c (Proc.devRef .tc main_v45) = val_main_v50 (F := Ideal) (m ((c : Thread nD τ).loc main_arg1)) := by
  show StableHlo.after hostOps2 (W4 m ρ c) (Proc.devRef .tc main_v45) = _
  after_results_simp
  rw [W4_arg1 m ρ c]
  rfl
set_option maxHeartbeats 2000000 in
theorem W5_dst : W5 m ρ c (Proc.devRef .tc main_v47) = val_main_v52 (F := Ideal) (m ((c : Thread nD τ).loc main_arg1)) := by
  show StableHlo.after hostOps2 (W4 m ρ c) (Proc.devRef .tc main_v47) = _
  after_results_simp
  rw [W4_arg1 m ρ c]
  rfl
set_option maxHeartbeats 2000000 in
theorem W5_h : W5 m ρ c (Proc.devRef .tc main_v43) = val_main_v48 (F := Ideal) (m ((c : Thread nD τ).loc main_arg0)) (m ((c : Thread nD τ).loc main_arg1)) (m ((c : Thread nD τ).loc main_arg2)) (m ((c : Thread nD τ).loc main_arg3)) := by
  show StableHlo.after hostOps2 (W4 m ρ c) (Proc.devRef .tc main_v43) = _
  after_results_simp
  exact W4_h m ρ c
set_option maxHeartbeats 2000000 in
theorem W5_arg4 : W5 m ρ c (Proc.devRef .tc main_arg4) = (m ((c : Thread nD τ).loc main_arg4)) := by
  show StableHlo.after hostOps2 (W4 m ρ c) (Proc.devRef .tc main_arg4) = _
  after_results_simp
  exact W4_arg4 m ρ c
set_option maxHeartbeats 2000000 in
theorem W5_arg5 : W5 m ρ c (Proc.devRef .tc main_arg5) = (m ((c : Thread nD τ).loc main_arg5)) := by
  show StableHlo.after hostOps2 (W4 m ρ c) (Proc.devRef .tc main_arg5) = _
  after_results_simp
  exact W4_arg5 m ρ c

/-! ## After region 2: the second projection -/

theorem W6_hw : W6 m ρ c (Proc.devRef .tc main_v48) = val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (W6_arr m ρ c 2).trans ((Reg2.final (V5 m ρ) c).trans
    ((congrArg₂ MM (W5_h m ρ c) (W5_arg4 m ρ c)).trans (Cert.ReferenceIdeal.RefLin.v53_eq _ _ _ _ _).symm))
theorem W6_src : W6 m ρ c (Proc.devRef .tc main_v45) = val_main_v50 (F := Ideal) (m ((c : Thread nD τ).loc main_arg1)) := (W6_of_ne m ρ c main_v45 (by decide)).trans (W5_src m ρ c)
theorem W6_dst : W6 m ρ c (Proc.devRef .tc main_v47) = val_main_v52 (F := Ideal) (m ((c : Thread nD τ).loc main_arg1)) := (W6_of_ne m ρ c main_v47 (by decide)).trans (W5_dst m ρ c)
theorem W6_arg5 : W6 m ρ c (Proc.devRef .tc main_arg5) = (m ((c : Thread nD τ).loc main_arg5)) := (W6_of_ne m ρ c main_arg5 (by decide)).trans (W5_arg5 m ρ c)

/-! ## After the fourth host stretch (region 3's entry) -/

set_option maxHeartbeats 8000000 in
theorem W7_agg : W7 m ρ c (Proc.devRef .tc main_v83) = val_main_v88 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps3 (W6 m ρ c) (Proc.devRef .tc main_v83) = _
  after_results_simp
  rw [W6_hw m ρ c, W6_src m ρ c, W6_dst m ρ c]
  rfl
set_option maxHeartbeats 8000000 in
theorem W7_col : W7 m ρ c (Proc.devRef .tc main_v85) = val_main_v90 (F := Ideal) (m ((c : Thread nD τ).loc main_arg1)) := by
  show StableHlo.after hostOps3 (W6 m ρ c) (Proc.devRef .tc main_v85) = _
  after_results_simp
  rw [W6_dst m ρ c]
  exact Cert.Layout.column_eq (val_main_v89 (F := Ideal) (m ((c : Thread nD τ).loc main_arg1))) _ _
set_option maxHeartbeats 8000000 in
theorem W7_row : W7 m ρ c (Proc.devRef .tc main_v86) = val_main_v94 (F := Ideal) (m ((c : Thread nD τ).loc main_arg5)) := by
  show StableHlo.after hostOps3 (W6 m ρ c) (Proc.devRef .tc main_v86) = _
  after_results_simp
  rw [W6_arg5 m ρ c]
  exact Cert.Layout.row_eq (m ((c : Thread nD τ).loc main_arg5)) _ _
set_option maxHeartbeats 8000000 in
theorem W7_hw : W7 m ρ c (Proc.devRef .tc main_v48) = val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps3 (W6 m ρ c) (Proc.devRef .tc main_v48) = _
  after_results_simp
  exact W6_hw m ρ c

/-! ## After region 3: the second layer; after region 4: its log-softmax -/

theorem W8_out : W8 m ρ c (Proc.devRef .tc main_v87) = val_main_v96 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W8_arr m ρ c 4).trans ((Reg3.final (V7 m ρ) c).trans ?_)
  show Comb (W7 m ρ c (Proc.devRef .tc main_v83)) (W7 m ρ c (Proc.devRef .tc main_v48)) (W7 m ρ c (Proc.devRef .tc main_v85)) (W7 m ρ c (Proc.devRef .tc main_v86)) = _
  rw [W7_agg m ρ c, W7_hw m ρ c, W7_col m ρ c, W7_row m ρ c, Cert.ReferenceIdeal.RefLin.v96_eq]

/-- The result array at the last boundary: the row-wise log-softmax of the reference's second layer of the six launch
    arrays. -/
theorem W9_result : W9 m ρ c (Proc.devRef .tc main_v88) = LS (val_main_v96 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :=
  (W9_arr m ρ c 1).trans ((Reg4.final (V8 m ρ) c).trans (congrArg LS (W8_out m ρ c)))

end Cert.KernelIdeal.KChain

end
-- ==== Proof.RefCut.lean ====
/-
  The reference's straight line of 134 host operations, cut where the live data is one array: after operation 58
  (the first layer before its rectifier), after 61 (the rectified first layer) and after 119 (the second layer); the
  last stretch is the log-softmax. The four stretches, appended, are the list.
-/
import proofs.«165799_j33517924778672_1_alg».proof.Proof.RefRead
import Idealize.ShloMosaic.Lib.StableHlo.Run
import Idealize.ShloMosaic.Lib.Pipeline.Frame

set_option maxRecDepth 16384

noncomputable section

namespace Cert.ReferenceIdeal.RefStages

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]
/-! ## The four stretches of the operation list -/

/-- Operations 0 … 57: the first layer up to its bias. -/
abbrev layer1 : List (HloOp τ sig (Elt F)) := (ops (F := F)).take 58
/-- Operations 58 … 60: the first layer's rectifier. -/
abbrev rect : List (HloOp τ sig (Elt F)) := ((ops (F := F)).drop 58).take 3
/-- Operations 61 … 118: the second layer. -/
abbrev layer2 : List (HloOp τ sig (Elt F)) := ((ops (F := F)).drop 61).take 58
/-- Operations 119 … 133: the log-softmax. -/
abbrev lsm : List (HloOp τ sig (Elt F)) := (ops (F := F)).drop 119

set_option maxHeartbeats 4000000 in
theorem ops_cut : ops (F := F) = layer1 ++ (rect ++ (layer2 ++ lsm)) := rfl

end Cert.ReferenceIdeal.RefStages

end
-- ==== Proof.RefStage1.lean ====
/-
  The reference's first stretch, from ANY contents V of the buffers: its last buffer holds the first layer before its
  rectifier as the stage-by-stage reading gives it of the four arguments it reads, and no argument is written.
-/
import proofs.«165799_j33517924778672_1_alg».proof.Proof.RefCut

set_option maxRecDepth 16384

noncomputable section

namespace Cert.ReferenceIdeal.RefStages

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]
set_option maxHeartbeats 8000000 in
/-- The first layer before its rectifier, from the four arguments it reads. -/
theorem layer1_out (V : Valuation τ sig (Elt F)) :
    StableHlo.after layer1 V (Proc.devRef .tc main_v47)
      = val_main_v47 (F := F) (V (Proc.devRef .tc main_arg0)) (V (Proc.devRef .tc main_arg1)) (V (Proc.devRef .tc main_arg2)) (V (Proc.devRef .tc main_arg3)) := by
  simp only [layer1, ops, List.take_succ_cons, List.take_zero]
  after_results_simp
  rfl

set_option maxHeartbeats 8000000 in
/-- The first layer writes no argument. -/
theorem layer1_keeps (V : Valuation τ sig (Elt F)) :
    StableHlo.after layer1 V (Proc.devRef .tc main_arg1) = (V (Proc.devRef .tc main_arg1))
    ∧ StableHlo.after layer1 V (Proc.devRef .tc main_arg4) = (V (Proc.devRef .tc main_arg4))
    ∧ StableHlo.after layer1 V (Proc.devRef .tc main_arg5) = (V (Proc.devRef .tc main_arg5)) := by
  simp only [layer1, ops, List.take_succ_cons, List.take_zero]
  refine ⟨?_, ?_, ?_⟩ <;> after_results_simp

end Cert.ReferenceIdeal.RefStages

end
-- ==== Proof.RefStage2.lean ====
/-
  The reference's second stretch, the first layer's rectifier, from ANY contents V: the maximum of what it finds at the
  first layer's buffer with the zero array; no argument is written.
-/
import proofs.«165799_j33517924778672_1_alg».proof.Proof.RefCut

set_option maxRecDepth 16384

noncomputable section

namespace Cert.ReferenceIdeal.RefStages

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]
set_option maxHeartbeats 8000000 in
/-- The rectifier: the maximum of what the stretch finds at `main_v47` with the zero array. -/
theorem rect_out (V : Valuation τ sig (Elt F)) (x0 : (⟨S100000x64, .f32⟩ : BufTy).Contents (Elt F)) (x1 : (⟨S2x1250000, .i32⟩ : BufTy).Contents (Elt F)) (x2 : (⟨S64x64, .f32⟩ : BufTy).Contents (Elt F)) (x3 : (⟨S64, .f32⟩ : BufTy).Contents (Elt F))
    (h47 : (V (Proc.devRef .tc main_v47)) = val_main_v47 (F := F) x0 x1 x2 x3) :
    StableHlo.after rect V (Proc.devRef .tc main_v48) = val_main_v48 (F := F) x0 x1 x2 x3 := by
  simp only [rect, ops, List.drop_succ_cons, List.drop_zero, List.take_succ_cons, List.take_zero]
  after_results_simp
  simp only [TRef.ofBuf, TRef.toBuf, cast_eq]
  rw [h47]
  rfl

set_option maxHeartbeats 8000000 in
/-- The rectifier writes no argument. -/
theorem rect_keeps (V : Valuation τ sig (Elt F)) :
    StableHlo.after rect V (Proc.devRef .tc main_arg1) = (V (Proc.devRef .tc main_arg1))
    ∧ StableHlo.after rect V (Proc.devRef .tc main_arg4) = (V (Proc.devRef .tc main_arg4))
    ∧ StableHlo.after rect V (Proc.devRef .tc main_arg5) = (V (Proc.devRef .tc main_arg5)) := by
  simp only [rect, ops, List.drop_succ_cons, List.drop_zero, List.take_succ_cons, List.take_zero]
  refine ⟨?_, ?_, ?_⟩ <;> after_results_simp

end Cert.ReferenceIdeal.RefStages

end
-- ==== Proof.RefStage3.lean ====
/-
  The reference's third stretch, the second layer, from ANY contents V: its last buffer holds the second layer of the
  rectified first layer it finds and of the three arguments it reads.
-/
import proofs.«165799_j33517924778672_1_alg».proof.Proof.RefCut

set_option maxRecDepth 16384

noncomputable section

namespace Cert.ReferenceIdeal.RefStages

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]
set_option maxHeartbeats 16000000 in
/-- The second layer, from the rectified first layer it finds at `main_v48` and the three arguments it reads. -/
theorem layer2_out (V : Valuation τ sig (Elt F)) (x0 : (⟨S100000x64, .f32⟩ : BufTy).Contents (Elt F)) (x1 : (⟨S2x1250000, .i32⟩ : BufTy).Contents (Elt F)) (x2 : (⟨S64x64, .f32⟩ : BufTy).Contents (Elt F)) (x3 : (⟨S64, .f32⟩ : BufTy).Contents (Elt F)) (x4 : (⟨S64x64, .f32⟩ : BufTy).Contents (Elt F)) (x5 : (⟨S64, .f32⟩ : BufTy).Contents (Elt F))
    (h48 : (V (Proc.devRef .tc main_v48)) = val_main_v48 (F := F) x0 x1 x2 x3)
    (h1 : (V (Proc.devRef .tc main_arg1)) = x1) (h4 : (V (Proc.devRef .tc main_arg4)) = x4) (h5 : (V (Proc.devRef .tc main_arg5)) = x5) :
    StableHlo.after layer2 V (Proc.devRef .tc main_v96) = val_main_v96 (F := F) x0 x1 x2 x3 x4 x5 := by
  simp only [layer2, ops, List.drop_succ_cons, List.drop_zero, List.take_succ_cons, List.take_zero]
  after_results_simp
  rw [h48, h1, h4, h5]
  rfl

end Cert.ReferenceIdeal.RefStages

end
-- ==== Proof.RefStage4.lean ====
/-
  The reference's last stretch, the log-softmax, from ANY contents V of the buffers. Its fifteen operations are taken in
  five short pieces, cut where one or two arrays are live: the row maxima; their maximum with −∞; the entries less
  their row's maximum (after which the second layer's array is no longer read); the row sums of the exponentials; and
  the entries less the logarithm of their row's sum. Each piece's output is the matching stage of the reference's
  stage-by-stage reading, given that its inputs are; folded, the result buffer holds the last stage of the second layer
  the stretch finds.
-/
import proofs.«165799_j33517924778672_1_alg».proof.Proof.RefCut

set_option maxRecDepth 16384

noncomputable section

namespace Cert.ReferenceIdeal.RefStages

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-! ## The five pieces -/

/-- Operations 119, 120: the word −∞ and the row maxima. -/
abbrev lsA : List (HloOp τ sig (Elt F)) := ((ops (F := F)).drop 119).take 2
/-- Operations 121 … 123: −∞ again, broadcast to the rows, and the maximum of that with the row maxima. -/
abbrev lsB : List (HloOp τ sig (Elt F)) := ((ops (F := F)).drop 121).take 3
/-- Operations 124 … 126: the maxima as a column, broadcast along the rows, subtracted from the entries. -/
abbrev lsC : List (HloOp τ sig (Elt F)) := ((ops (F := F)).drop 124).take 3
/-- Operations 127 … 129: the exponentials, the zero word, the row sums. -/
abbrev lsD : List (HloOp τ sig (Elt F)) := ((ops (F := F)).drop 127).take 3
/-- Operations 130 … 133: the sums as a column, their logarithm, broadcast along the rows, subtracted. -/
abbrev lsE : List (HloOp τ sig (Elt F)) := (ops (F := F)).drop 130

set_option maxHeartbeats 4000000 in
theorem lsm_cut : lsm (F := F) = lsA ++ (lsB ++ (lsC ++ (lsD ++ lsE))) := rfl

/-! ## What each piece leaves -/

set_option maxHeartbeats 4000000 in
theorem lsA_out (V : Valuation τ sig (Elt F)) (x0 : (⟨S100000x64, .f32⟩ : BufTy).Contents (Elt F)) (x1 : (⟨S2x1250000, .i32⟩ : BufTy).Contents (Elt F)) (x2 : (⟨S64x64, .f32⟩ : BufTy).Contents (Elt F)) (x3 : (⟨S64, .f32⟩ : BufTy).Contents (Elt F)) (x4 : (⟨S64x64, .f32⟩ : BufTy).Contents (Elt F)) (x5 : (⟨S64, .f32⟩ : BufTy).Contents (Elt F))
    (h96 : (V (Proc.devRef .tc main_v96)) = val_main_v96 (F := F) x0 x1 x2 x3 x4 x5) :
    StableHlo.after lsA V (Proc.devRef .tc main_call1_v0) = val_main_call1_v0 (F := F) x0 x1 x2 x3 x4 x5 := by
  simp only [lsA, ops, List.drop_succ_cons, List.drop_zero, List.take_succ_cons, List.take_zero]
  after_results_simp
  simp only [TRef.ofBuf, TRef.toBuf, cast_eq]
  rw [h96]
  rfl
set_option maxHeartbeats 4000000 in
theorem lsA_keep (V : Valuation τ sig (Elt F)) :
    StableHlo.after lsA V (Proc.devRef .tc main_v96) = (V (Proc.devRef .tc main_v96)) := by
  simp only [lsA, ops, List.drop_succ_cons, List.drop_zero, List.take_succ_cons, List.take_zero]
  after_results_simp

set_option maxHeartbeats 4000000 in
theorem lsB_out (V : Valuation τ sig (Elt F)) (x0 : (⟨S100000x64, .f32⟩ : BufTy).Contents (Elt F)) (x1 : (⟨S2x1250000, .i32⟩ : BufTy).Contents (Elt F)) (x2 : (⟨S64x64, .f32⟩ : BufTy).Contents (Elt F)) (x3 : (⟨S64, .f32⟩ : BufTy).Contents (Elt F)) (x4 : (⟨S64x64, .f32⟩ : BufTy).Contents (Elt F)) (x5 : (⟨S64, .f32⟩ : BufTy).Contents (Elt F))
    (h0 : (V (Proc.devRef .tc main_call1_v0)) = val_main_call1_v0 (F := F) x0 x1 x2 x3 x4 x5) :
    StableHlo.after lsB V (Proc.devRef .tc main_call1_v2) = val_main_call1_v2 (F := F) x0 x1 x2 x3 x4 x5 := by
  simp only [lsB, ops, List.drop_succ_cons, List.drop_zero, List.take_succ_cons, List.take_zero]
  after_results_simp
  simp only [TRef.ofBuf, TRef.toBuf, cast_eq]
  rw [h0]
  rfl
set_option maxHeartbeats 4000000 in
theorem lsB_keep (V : Valuation τ sig (Elt F)) :
    StableHlo.after lsB V (Proc.devRef .tc main_v96) = (V (Proc.devRef .tc main_v96)) := by
  simp only [lsB, ops, List.drop_succ_cons, List.drop_zero, List.take_succ_cons, List.take_zero]
  after_results_simp

set_option maxHeartbeats 4000000 in
theorem lsC_out (V : Valuation τ sig (Elt F)) (x0 : (⟨S100000x64, .f32⟩ : BufTy).Contents (Elt F)) (x1 : (⟨S2x1250000, .i32⟩ : BufTy).Contents (Elt F)) (x2 : (⟨S64x64, .f32⟩ : BufTy).Contents (Elt F)) (x3 : (⟨S64, .f32⟩ : BufTy).Contents (Elt F)) (x4 : (⟨S64x64, .f32⟩ : BufTy).Contents (Elt F)) (x5 : (⟨S64, .f32⟩ : BufTy).Contents (Elt F))
    (h2 : (V (Proc.devRef .tc main_call1_v2)) = val_main_call1_v2 (F := F) x0 x1 x2 x3 x4 x5)
    (h96 : (V (Proc.devRef .tc main_v96)) = val_main_v96 (F := F) x0 x1 x2 x3 x4 x5) :
    StableHlo.after lsC V (Proc.devRef .tc main_call1_v5) = val_main_call1_v5 (F := F) x0 x1 x2 x3 x4 x5 := by
  simp only [lsC, ops, List.drop_succ_cons, List.drop_zero, List.take_succ_cons, List.take_zero]
  after_results_simp
  simp only [TRef.ofBuf, TRef.toBuf, cast_eq]
  rw [h2, h96]
  rfl

set_option maxHeartbeats 4000000 in
theorem lsD_out (V : Valuation τ sig (Elt F)) (x0 : (⟨S100000x64, .f32⟩ : BufTy).Contents (Elt F)) (x1 : (⟨S2x1250000, .i32⟩ : BufTy).Contents (Elt F)) (x2 : (⟨S64x64, .f32⟩ : BufTy).Contents (Elt F)) (x3 : (⟨S64, .f32⟩ : BufTy).Contents (Elt F)) (x4 : (⟨S64x64, .f32⟩ : BufTy).Contents (Elt F)) (x5 : (⟨S64, .f32⟩ : BufTy).Contents (Elt F))
    (h5 : (V (Proc.devRef .tc main_call1_v5)) = val_main_call1_v5 (F := F) x0 x1 x2 x3 x4 x5) :
    StableHlo.after lsD V (Proc.devRef .tc main_call1_v7) = val_main_call1_v7 (F := F) x0 x1 x2 x3 x4 x5 := by
  simp only [lsD, ops, List.drop_succ_cons, List.drop_zero, List.take_succ_cons, List.take_zero]
  after_results_simp
  simp only [TRef.ofBuf, TRef.toBuf, cast_eq]
  rw [h5]
  rfl
set_option maxHeartbeats 4000000 in
theorem lsD_keep (V : Valuation τ sig (Elt F)) :
    StableHlo.after lsD V (Proc.devRef .tc main_call1_v5) = (V (Proc.devRef .tc main_call1_v5)) := by
  simp only [lsD, ops, List.drop_succ_cons, List.drop_zero, List.take_succ_cons, List.take_zero]
  after_results_simp

set_option maxHeartbeats 4000000 in
theorem lsE_out (V : Valuation τ sig (Elt F)) (x0 : (⟨S100000x64, .f32⟩ : BufTy).Contents (Elt F)) (x1 : (⟨S2x1250000, .i32⟩ : BufTy).Contents (Elt F)) (x2 : (⟨S64x64, .f32⟩ : BufTy).Contents (Elt F)) (x3 : (⟨S64, .f32⟩ : BufTy).Contents (Elt F)) (x4 : (⟨S64x64, .f32⟩ : BufTy).Contents (Elt F)) (x5 : (⟨S64, .f32⟩ : BufTy).Contents (Elt F))
    (h7 : (V (Proc.devRef .tc main_call1_v7)) = val_main_call1_v7 (F := F) x0 x1 x2 x3 x4 x5)
    (h5 : (V (Proc.devRef .tc main_call1_v5)) = val_main_call1_v5 (F := F) x0 x1 x2 x3 x4 x5) :
    StableHlo.after lsE V (Proc.devRef .tc main_v97) = val_main_v97 (F := F) x0 x1 x2 x3 x4 x5 := by
  simp only [lsE, ops, List.drop_succ_cons, List.drop_zero]
  after_results_simp
  simp only [TRef.ofBuf, TRef.toBuf, cast_eq]
  rw [h7, h5]
  rfl

/-! ## The stretch -/

/-- The log-softmax of what the stretch finds at `main_v96`. -/
theorem lsm_out (V : Valuation τ sig (Elt F)) (x0 : (⟨S100000x64, .f32⟩ : BufTy).Contents (Elt F)) (x1 : (⟨S2x1250000, .i32⟩ : BufTy).Contents (Elt F)) (x2 : (⟨S64x64, .f32⟩ : BufTy).Contents (Elt F)) (x3 : (⟨S64, .f32⟩ : BufTy).Contents (Elt F)) (x4 : (⟨S64x64, .f32⟩ : BufTy).Contents (Elt F)) (x5 : (⟨S64, .f32⟩ : BufTy).Contents (Elt F))
    (h96 : (V (Proc.devRef .tc main_v96)) = val_main_v96 (F := F) x0 x1 x2 x3 x4 x5) :
    StableHlo.after lsm V (Proc.devRef .tc main_v97) = val_main_v97 (F := F) x0 x1 x2 x3 x4 x5 := by
  rw [lsm_cut, StableHlo.after_append, StableHlo.after_append, StableHlo.after_append, StableHlo.after_append]
  have a0 := lsA_out V x0 x1 x2 x3 x4 x5 h96
  have a96 := (lsA_keep V).trans h96
  have b2 := lsB_out (StableHlo.after lsA V) x0 x1 x2 x3 x4 x5 a0
  have b96 := (lsB_keep (StableHlo.after lsA V)).trans a96
  have c5 := lsC_out (StableHlo.after lsB (StableHlo.after lsA V)) x0 x1 x2 x3 x4 x5 b2 b96
  have d7 := lsD_out (StableHlo.after lsC (StableHlo.after lsB (StableHlo.after lsA V))) x0 x1 x2 x3 x4 x5 c5
  have d5 := (lsD_keep (StableHlo.after lsC (StableHlo.after lsB (StableHlo.after lsA V)))).trans c5
  exact lsE_out _ x0 x1 x2 x3 x4 x5 d7 d5

end Cert.ReferenceIdeal.RefStages

end
-- ==== Proof.RefStages.lean ====
/-
  The reference's run, read stretch by stretch. Its @main is one straight line of 134 host operations; the list is
  cut where the live data is one array: after operation 58 (the first layer before its rectifier, `main_v47`), after
  61 (the rectified first layer, `main_v48`), after 119 (the second layer, `main_v96`); the last stretch is the
  log-softmax. Over each stretch, from ANY contents V of the buffers, the stretch's output buffer holds the next
  stage of the reference's stage-by-stage reading as a function of what V holds at the stretch's inputs; no stretch
  writes an argument. Folding the four stretches from the launch contents, the result buffer ends at the last stage,
  `val_main_v97`, of the six argument arrays.
-/
import proofs.«165799_j33517924778672_1_alg».proof.Proof.RefStage1
import proofs.«165799_j33517924778672_1_alg».proof.Proof.RefStage2
import proofs.«165799_j33517924778672_1_alg».proof.Proof.RefStage3
import proofs.«165799_j33517924778672_1_alg».proof.Proof.RefStage4
import Idealize.ShloMosaic.Lib.StableHlo.Run
import Idealize.ShloMosaic.Lib.Pipeline.Frame

set_option maxRecDepth 16384

noncomputable section

namespace Cert.ReferenceIdeal.RefStages

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-! ## The whole line -/

/-- From any contents V, after all 134 operations the result buffer holds the last stage of the arrays V has at the
    six arguments. -/
theorem ops_out (V : Valuation τ sig (Elt F)) :
    StableHlo.after (ops (F := F)) V (Proc.devRef .tc main_v97)
      = val_main_v97 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) := by
  rw [ops_cut, StableHlo.after_append, StableHlo.after_append, StableHlo.after_append]
  obtain ⟨k1, k4, k5⟩ := layer1_keeps V
  obtain ⟨r1, r4, r5⟩ := rect_keeps (StableHlo.after layer1 V)
  have s48 := rect_out (StableHlo.after layer1 V) _ _ _ _ (layer1_out V)
  exact lsm_out _ _ _ _ _ _ _
    (layer2_out (StableHlo.after rect (StableHlo.after layer1 V)) _ _ _ _ _ _ s48 (r1.trans k1) (r4.trans k4) (r5.trans k5))

set_option maxHeartbeats 53600000 in
/-- On every device, from any memory with zero counters: every weakly fair execution of @main terminates without a
    fault, the result array ends at the last stage of the six argument arrays as launched, and those end unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v97)
        = val_main_v97 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v97).trans ((ops_out (F := F) _).trans rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.ReferenceIdeal.RefStages

end
-- ==== Proof.RefLS.lean ====
/-
  The reference's row-wise log-softmax as a whole-array function of the second layer's output v, over the extended
  reals. The stages: the maximum of each row as a reduce of max over the 64 columns from the word −∞; the maximum of
  that with the word −∞ again, which changes nothing because a fold of max from a word is at least that word; the
  row maxima kept as a [100000, 1] column and read back along each row; the entries less their row's maximum; their
  exponentials; the sum of each row of those from the zero word; its logarithm, again through a column; and the
  difference. Read at an index (r, q) this is (v(r, q) − M r) − log (Σ_k exp (v(r, k) − M r)), M r the fold of max
  over row r from the word −∞.
-/
import proofs.«165799_j33517924778672_1_alg».proof.Proof.RefRead
import proofs.«165799_j33517924778672_1_alg».proof.Proof.Spec
import Idealize.ShloMosaic.PureOps.Reduce
import Idealize.ShloMosaic.PureOps.Ideal.Laws
import Mathlib.Data.Finset.Fold

set_option maxRecDepth 16384

noncomputable section

namespace Cert.ReferenceIdeal.RefLS

open Cert.ReferenceIdeal Cert.ReferenceIdeal.Gen Cert.ReferenceIdeal.ReadP Idealize.ShloMosaic Idealize.ShloMosaic.ValueIdx Cert.Spec

/-! ## Index bookkeeping: the stages' index functions at an index are its row -/

/-- Through the two broadcasts of the row maxima, an index reads its row. -/
theorem idx34_eq (i : S100000x64.Idx) : idx_main_call1_v3 (idx_main_call1_v4 i) = ix1 (rowOf i) :=
  funext fun a => Fin.ext (by
    match a with
    | ⟨0, _⟩ => rfl)

/-- Through the two broadcasts of the row sums, an index reads its row. -/
theorem idx810_eq (i : S100000x64.Idx) : idx_main_call1_v8 (idx_main_call1_v10 i) = ix1 (rowOf i) :=
  funext fun a => Fin.ext (by
    match a with
    | ⟨0, _⟩ => rfl)

/-- The sum's k-th term at row r reads entry (r, k). -/
theorem idx7_eq (r : Fin 100000) (k : Fin 64) : idx_main_call1_v7 (ix1 r) k = ix2 r k :=
  funext fun a => Fin.ext (by
    match a with
    | ⟨0, _⟩ => rfl
    | ⟨1, _⟩ => rfl)

/-- A row index with column k inserted on axis 1 is the entry (r, k). -/
theorem lift_ix1 (h : S100000x64.Reduces [1] S100000) (r : Fin 100000) (k : Fin 64) : h.lift (ix1 r) k = ix2 r k :=
  funext fun a => Fin.ext (by
    match a with
    | ⟨0, _⟩ => rfl
    | ⟨1, _⟩ => rfl)

/-! ## A reduce of max over the columns is the row's fold of max -/

/-- Over any array and any initial word: the reduce of max over axis 1, at row r, is the fold of max over the row's
    64 entries from the initial value. -/
theorem reduce_max_row (v : S100000x64.Idx → EReal) (init : S_.Idx → EReal) (r : Fin 100000) :
    Host.reduce (FloatOps.maximumf (F := Ideal) (φ := .f32)) v init reducesTo_S100000x64_S100000_d1 h_S_ (ix1 r)
      = (Finset.univ : Finset (Fin 64)).fold max (init (Shape.Idx.first h_S_)) (fun k => v (ix2 r k)) := by
  have h : S100000x64.Reduces [1] S100000 := by decide
  refine (Host.reduce_eq_fold_single (FloatOps.maximumf (F := Ideal) (φ := .f32)) v init reducesTo_S100000x64_S100000_d1 h h_S_ (ix1 r)).trans ?_
  have hf : (v ∘ h.lift (ix1 r)) = fun k : Fin 64 => v (ix2 r k) := funext fun k => congrArg v (lift_ix1 h r k)
  rw [hf]
  rfl

/-! ## The stages at an index -/

section Stages
variable (x0 : (⟨S100000x64, .f32⟩ : BufTy).Contents (Elt Ideal)) (x1 : (⟨S2x1250000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal))

/-- The reduce of max at row r is the row's maximum. -/
theorem v0_row (r : Fin 100000) :
    val_main_call1_v0 (F := Ideal) x0 x1 x2 x3 x4 x5 (ix1 r) = rowMax (val_main_v96 (F := Ideal) x0 x1 x2 x3 x4 x5) r := by
  unfold val_main_call1_v0
  generalize val_main_v96 (F := Ideal) x0 x1 x2 x3 x4 x5 = v
  exact reduce_max_row v (val_main_call1_cst (F := Ideal)) r

/-- The maximum of the word −∞ with the row's maximum is the row's maximum: the fold starts from that word. -/
theorem v2_row (r : Fin 100000) :
    val_main_call1_v2 (F := Ideal) x0 x1 x2 x3 x4 x5 (ix1 r) = rowMax (val_main_v96 (F := Ideal) x0 x1 x2 x3 x4 x5) r := by
  rw [val_main_call1_v2_apply, val_main_call1_v1_apply, val_main_call1_cst_0_apply, v0_row]
  generalize val_main_v96 (F := Ideal) x0 x1 x2 x3 x4 x5 = v
  show max (Ideal.ofBits .f32 0xFF800000#32) (rowMax v r) = rowMax v r
  exact max_eq_right ((Finset.le_fold_max _).2 (Or.inl le_rfl))

/-- The row maxima read back at an entry: the maximum of the entry's row. -/
theorem v4_at (i : S100000x64.Idx) :
    val_main_call1_v4 (F := Ideal) x0 x1 x2 x3 x4 x5 i = rowMax (val_main_v96 (F := Ideal) x0 x1 x2 x3 x4 x5) (rowOf i) := by
  rw [val_main_call1_v4_apply, val_main_call1_v3_apply, idx34_eq, v2_row]

/-- An entry less its row's maximum. -/
theorem v5_at (i : S100000x64.Idx) :
    val_main_call1_v5 (F := Ideal) x0 x1 x2 x3 x4 x5 i
      = val_main_v96 (F := Ideal) x0 x1 x2 x3 x4 x5 i - rowMax (val_main_v96 (F := Ideal) x0 x1 x2 x3 x4 x5) (rowOf i) := by
  rw [val_main_call1_v5_apply, v4_at]
  rfl

/-- The sum at row r of the exponentials of the entries less the row's maximum, the zero word added to nothing. -/
theorem v7_row (r : Fin 100000) :
    val_main_call1_v7 (F := Ideal) x0 x1 x2 x3 x4 x5 (ix1 r) = rowSumExp (val_main_v96 (F := Ideal) x0 x1 x2 x3 x4 x5) r := by
  rw [val_main_call1_v7_apply, val_main_call1_cst_1_apply]
  show Ideal.ofBits .f32 0x00000000#32 + _ = _
  rw [Ideal.ofBits_zero_f32, zero_add]
  unfold rowSumExp
  refine Finset.sum_congr rfl fun k _ => ?_
  rw [idx7_eq, val_main_call1_v6_apply, v5_at]
  generalize val_main_v96 (F := Ideal) x0 x1 x2 x3 x4 x5 = v
  rfl

/-- The reference's log-softmax is the row-wise log-softmax of the second layer's output. -/
theorem v97_eq' :
    val_main_v97 (F := Ideal) x0 x1 x2 x3 x4 x5 = LS (val_main_v96 (F := Ideal) x0 x1 x2 x3 x4 x5) := by
  funext i
  rw [val_main_v97_apply, val_main_call1_v10_apply, val_main_call1_v9_apply, val_main_call1_v8_apply, idx810_eq, v7_row, v5_at]
  generalize val_main_v96 (F := Ideal) x0 x1 x2 x3 x4 x5 = v
  show _ = lsAt v (rowOf i) (colOf i)
  unfold lsAt
  rw [ix2_row_col]
  rfl

end Stages

/-- The reference's log-softmax is the row-wise log-softmax of the second layer's output. -/
theorem v97_eq (x0 : (⟨S100000x64, .f32⟩ : BufTy).Contents (Elt Ideal)) (x1 : (⟨S2x1250000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) :
    val_main_v97 (F := Ideal) x0 x1 x2 x3 x4 x5 = LS (val_main_v96 (F := Ideal) x0 x1 x2 x3 x4 x5) :=
  v97_eq' x0 x1 x2 x3 x4 x5

end Cert.ReferenceIdeal.RefLS

end
-- ==== Proof.lean ====
/-
  A two-layer graph convolution with a row-wise log-softmax, over 100000 nodes of 64 features and 1250000 edges:
      out = log_softmax( conv( relu( conv(x, W₁, b₁) ), W₂, b₂ ) ),
      conv(h, W, b)(r, ·) = Σ_{edges s→r} (h·W)(s, ·) · d(s)^{-1/2} d(r)^{-1/2}  +  (h·W)(r, ·) · d(r)^{-1}  +  b,
  d the in-degree plus one. The kernel program computes h·W, the combine "sums + self term + bias" (with the first
  layer's rectifier) and the log-softmax in five tiled regions of 50 row blocks each, and the edge gathers, the
  scatter-adds and the inverse root degree in the same host operations as the reference; the reference does everything
  in host operations. Over the extended reals the two agree array for array:
    * a region's matrix product of a row block with the weights is the block of the reference's dot_general (the change
      of float format of the operands is the identity, the accumulator starts at zero);
    * a combine region's block is the block of the reference's two broadcasts, product and two sums, the kernel's
      reshapes of the per-node factor to a column and of the bias to a row being the reference's broadcasts of them;
    * the log-softmax region's block is the block of the reference's: its extra maximum with −∞ changes nothing, its sum
      starts from the zero word;
    * the blocks tile the rows, so each region's output array is the reference's stage as a whole array, and every host
      stretch between regions is the reference's own operations on equal inputs.
  No law used needs finiteness (sums are re-read, never re-associated across a product), so the precondition is taken
  and not opened. The idealization rewrote nothing: `preserves` is `True`.
  The three frames: the two kernel programs' are the generated frame certificates; the reference's is its run, read
  stretch by stretch, with the result dropped.
-/
import proofs.«165799_j33517924778672_1_alg».proof.Defs
import proofs.«165799_j33517924778672_1_alg».proof.Proof.Gen.Kernel
import proofs.«165799_j33517924778672_1_alg».proof.Proof.Gen.Kernel.Frame
import proofs.«165799_j33517924778672_1_alg».proof.Proof.Gen.KernelIdeal
import proofs.«165799_j33517924778672_1_alg».proof.Proof.Gen.KernelIdeal.Frame
import proofs.«165799_j33517924778672_1_alg».proof.Proof.Gen.ReferenceIdeal
import proofs.«165799_j33517924778672_1_alg».proof.Proof.Gen.Pre_finite_inputs
import proofs.«165799_j33517924778672_1_alg».proof.Proof.KRun
import proofs.«165799_j33517924778672_1_alg».proof.Proof.KChain
import proofs.«165799_j33517924778672_1_alg».proof.Proof.RefStages
import proofs.«165799_j33517924778672_1_alg».proof.Proof.RefLS
import Idealize.ShloMosaic.Adequacy
import Idealize.ShloMosaic.Init

noncomputable section

namespace Cert.Proof

open Idealize.ShloMosaic Idealize.SL.Sem

/-- The word-level kernel program runs and keeps its arguments: its generated frame certificate. -/
theorem frame_kernel [hK : Cert.Kernel.Facts] [hP : Cert.Pre_finite_inputs.Facts] : Cert.frame_Kernel :=
  fun m ρ _ => Cert.Kernel.Gen.frame m ρ

/-- The idealized kernel program runs and keeps its arguments: its generated frame certificate. -/
theorem frame_kernelIdeal [hK : Cert.KernelIdeal.Facts] [hP : Cert.Pre_finite_inputs.Facts] : Cert.frame_KernelIdeal :=
  fun m ρ _ => Cert.KernelIdeal.Gen.frame m ρ

/-- The reference runs and keeps its arguments: its run with the result dropped. -/
theorem frame_reference [hR : Cert.ReferenceIdeal.Facts] [hP : Cert.Pre_finite_inputs.Facts] : Cert.frame_ReferenceIdeal :=
  fun m ρ _ => (θ_run Cert.ReferenceIdeal.defs _ _).mono (fun _ h c => (h c).2)
    (Cert.ReferenceIdeal.RefStages.run (F := Ideal) m ρ)

/-- Both programs end with the result array at the row-wise log-softmax of the reference's second layer of the six
    launch arrays: the kernel program by following its boundaries, the reference by its last stage. -/
theorem algebraic [hK : Cert.KernelIdeal.Facts] [hR : Cert.ReferenceIdeal.Facts] [hP : Cert.Pre_finite_inputs.Facts] :
    Cert.algebraic_KernelIdeal_ReferenceIdeal := by
  intro m ρ m' ρ' _ hagree
  refine ⟨fun c => Cert.Spec.LS (Cert.ReferenceIdeal.ReadP.val_main_v96 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))), ?_, ?_⟩
  · exact (θ_run Cert.KernelIdeal.defs _ _).mono
      (fun r h c => ⟨(h c).1.trans (Cert.KernelIdeal.KChain.W9_result m ρ c), (h c).2⟩)
      (Cert.KernelIdeal.KRun.run (F := Ideal) m ρ)
  · refine (θ_run Cert.ReferenceIdeal.defs _ _).mono (fun r h c => ⟨(h c).1.trans ?_, (h c).2⟩)
      (Cert.ReferenceIdeal.RefStages.run (F := Ideal) m' ρ')
    obtain ⟨e0, e1, e2, e3, e4, e5⟩ := hagree c
    rw [e0, e1, e2, e3, e4, e5]
    exact Cert.ReferenceIdeal.RefLS.v97_eq _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
